-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S512x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x2048 : Shape := ⟨2, ![16384, 2048]⟩
abbrev S2048 : Shape := ⟨1, ![2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S16384x2048 .f32) (main_arg2 : IVec S2048 32) (main_arg3 : FVec F S2048x2048 .f32) : IVec S_ 1 :=
  let main_v0 : FVec F S16384x2048 .f32 := Host.absf main_arg1
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg3
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 2048#32
  let main_v11 : IVec S16384 32 := broadcastInDim S16384 ![] bcast_S_S16384 main_c_3
  let main_v12 : IVec S16384 1 := cmpi .slt main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384 : Shape := ⟨1, ![16384]⟩
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩
abbrev S256 : Shape := ⟨1, ![256]⟩
abbrev S256x2048 : Shape := ⟨2, ![256, 2048]⟩
abbrev S256x1 : Shape := ⟨2, ![256, 1]⟩
abbrev S32x1x2048 : Shape := ⟨3, ![32, 1, 2048]⟩
abbrev S32x1x1 : Shape := ⟨3, ![32, 1, 1]⟩
abbrev S512 : Shape := ⟨1, ![512]⟩
abbrev S512x2048 : Shape := ⟨2, ![512, 2048]⟩
abbrev S1x1x2048 : Shape := ⟨3, ![1, 1, 2048]⟩
abbrev S1x1x1 : Shape := ⟨3, ![1, 1, 1]⟩
abbrev S512x1 : Shape := ⟨2, ![512, 1]⟩
abbrev S1 : Shape := ⟨1, ![1]⟩
abbrev S1x1 : Shape := ⟨2, ![1, 1]⟩

abbrev nBuf : Space → Nat
  | .hbm => 41
  | .vmem => 14
  | .smem => 0
  | _ => 0

abbrev bufTy : (tb : Table) → Fin (tcTables nBuf tb) → BufTy
  | .hbm, ⟨0, _⟩ => ⟨S16384, .i32⟩
  | .hbm, ⟨1, _⟩ => ⟨S16384x2048, .f32⟩
  | .hbm, ⟨2, _⟩ => ⟨S2048, .i32⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x1, .f32⟩
  | .hbm, ⟨10, _⟩ => ⟨S2048x2048, .f32⟩
  | .hbm, ⟨11, _⟩ => ⟨S2048x2048, .f32⟩
  | .hbm, ⟨12, _⟩ => ⟨S2048x2048, .bf16⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S2048x2048, .bf16⟩
  | .hbm, ⟨22, _⟩ => ⟨S1x2048, .i32⟩
  | .hbm, ⟨23, _⟩ => ⟨S2048, .f32⟩
  | .hbm, ⟨24, _⟩ => ⟨S32x1x2048, .f32⟩
  | .hbm, ⟨25, _⟩ => ⟨S32x1x1, .f32⟩
  | .hbm, ⟨26, _⟩ => ⟨S_, .f32⟩
  | .hbm, ⟨27, _⟩ => ⟨S1x2048, .f32⟩
  | .hbm, ⟨28, _⟩ => ⟨S2048, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S2048x2048, .bf16⟩
  | .local _ .vmem, ⟨1, _⟩ => ⟨S2048x2048, .bf16⟩
  | .local _ .vmem, ⟨2, _⟩ => ⟨S1x2048, .i32⟩
  | .local _ .vmem, ⟨3, _⟩ => ⟨S256, .f32⟩
  | .local _ .vmem, ⟨4, _⟩ => ⟨S256, .f32⟩
  | .local _ .vmem, ⟨5, _⟩ => ⟨S512, .i32⟩
  | .local _ .vmem, ⟨6, _⟩ => ⟨S512, .i32⟩
  | .local _ .vmem, ⟨7, _⟩ => ⟨S512x2048, .f32⟩
  | .local _ .vmem, ⟨8, _⟩ => ⟨S512x2048, .f32⟩
  | .local _ .vmem, ⟨9, _⟩ => ⟨S2048x2048, .bf16⟩
  | .local _ .vmem, ⟨10, _⟩ => ⟨S1x1x2048, .f32⟩
  | .local _ .vmem, ⟨11, _⟩ => ⟨S1x1x2048, .f32⟩
  | .local _ .vmem, ⟨12, _⟩ => ⟨S1x1x1, .f32⟩
  | .local _ .vmem, ⟨13, _⟩ => ⟨S1x1x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S2048 : S_.BroadcastsInDim S2048 (![] : Fin 0 → Fin S2048.rank)
  shapeCasts_S2048_S1x2048 : S2048.ShapeCasts S1x2048
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  iota_S256x2048_d0_w32 : S256x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  natLt_1_32 : 1 < 32
  reduces_S256x2048_S256 : S256x2048.Reduces [1] S256
  shapeCasts_S256_S256x1 : S256.ShapeCasts S256x1
  shapeCasts_S256x1_S256 : S256x1.ShapeCasts S256
  inb_S256_S256_0 : ∀ a, (![0] : Fin 1 → Nat) a + S256.size a ≤ S256.size a
  h_S256 : 0 < S256.numel
  inb_S512_S512_0 : ∀ a, (![0] : Fin 1 → Nat) a + S512.size a ≤ S512.size a
  h_S512 : 0 < S512.numel
  shapeCasts_S512_S512x1 : S512.ShapeCasts S512x1
  iota_S512x2048_d1_w32 : S512x2048.Iotas .tc 32 [1]
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  reduces_S512x1_S1 : S512x1.Reduces [0] S1
  shapeCasts_S1_S1x1 : S1.ShapeCasts S1x1
  reduces_S512x2048_S2048 : S512x2048.Reduces [0] S2048
  shapeCasts_S1x2048_S1x1x2048 : S1x2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S32x1x2048_S1x2048_d0 : S32x1x2048.ReducesTo [0] S1x2048
  shapeCasts_S1x2048_S2048 : S1x2048.ShapeCasts S2048
  reducesTo_S32x1x1_S_d0_1_2 : S32x1x1.ReducesTo [0, 1, 2] S_
  reducesTo_S2048_S_d0 : S2048.ReducesTo [0] S_
  gather_S2048x2048_S2048x1_S2048x2048_1_0_n_n_0_1_12048_wf : GatherDims.WF S2048x2048 S2048x1 S2048x2048 [1] [0] [] [0] [] 1 ![1, 2048]
  dot_S256x2048_S2048x2048_S256x2048_1_1_0_0_n_n_wf : DotDims.WF S256x2048 S2048x2048 S256x2048 [1] [1] [0] [0] [] []
  dot_S512x2048_S2048x2048_S512x2048_1_0_0_1_n_n_wf : DotDims.WF S512x2048 S2048x2048 S512x2048 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x2048.size a ≤ S2048x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .bf16 = 32 ∨ (Rect.block (s := S2048x2048) S2048x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .i32 = 32 ∨ (Rect.block (s := S1x2048) S1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S2048.size a
  hwx0_3 : ∀ i : grid0.Coords, EltTy.bits .f32 = 32 ∨ (Rect.block (s := S2048) S256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512.size a ≤ S16384.size a
  hwx1_0 : ∀ i : grid1.Coords, EltTy.bits .i32 = 32 ∨ (Rect.block (s := S16384) S512.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S16384x2048.size a
  hwx1_1 : ∀ i : grid1.Coords, EltTy.bits .f32 = 32 ∨ (Rect.block (s := S16384x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S32x1x2048.size a
  hwx1_3 : ∀ i : grid1.Coords, EltTy.bits .f32 = 32 ∨ (Rect.block (s := S32x1x2048) S1x1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S32x1x1.size a
  hwx1_4 : ∀ i : grid1.Coords, EltTy.bits .f32 = 32 ∨ (Rect.block (s := S32x1x1) S1x1x1.size (cc1_transform_4 i) (hinb1_4 i)).WholeWords (EltTy.packing .f32)

variable [Facts₀]

def gather_S2048x2048_S2048x1_S2048x2048_1_0_n_n_0_1_12048 : GatherDims S2048x2048 S2048x1 S2048x2048 where
  offsetDims := [1]
  collapsedSliceDims := [0]
  operandBatchingDims := []
  startIndicesBatchingDims := []
  startIndexMap := [0]
  indexVectorDim := 1
  sliceSizes := ![1, 2048]
  wf := gather_S2048x2048_S2048x1_S2048x2048_1_0_n_n_0_1_12048_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v4) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14_0) S1x1x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14_1) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384 : Shape := ⟨1, ![16384]⟩
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩
abbrev S16384x1 : Shape := ⟨2, ![16384, 1]⟩

abbrev nBuf : Space → Nat
  | .hbm => 66
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x2048, .f32⟩
  | .hbm, ⟨2, _⟩ => ⟨S2048, .i32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x1, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S2048x2048, .f32⟩
  | .hbm, ⟨22, _⟩ => ⟨S1x2048, .i32⟩
  | .hbm, ⟨23, _⟩ => ⟨S2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S16384, .i32⟩
  | .hbm, ⟨50, _⟩ => ⟨S16384, .i1⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .i32⟩
  | .hbm, ⟨55, _⟩ => ⟨S16384x1, .i32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  transposes_S2048x2048_S2048x2048_1_0 : S2048x2048.Transposes [1, 0] S2048x2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384_S_d0 : S16384.ReducesTo [0] S_
  reducesTo_S16384x2048_S_d0_1 : S16384x2048.ReducesTo [0, 1] S_
  dot_S2048x2048_S2048x2048_S2048x2048_1_0_0_1_n_n_wf : DotDims.WF S2048x2048 S2048x2048 S2048x2048 [1] [0] [0] [1] [] []
  gather_S2048x2048_S2048x1_S2048x2048_0_1_n_n_1_1_20481_wf : GatherDims.WF S2048x2048 S2048x1 S2048x2048 [0] [1] [] [1] [] 1 ![2048, 1]
  gather_S2048_S16384x1_S16384_n_0_n_n_0_1_1_wf : GatherDims.WF S2048 S16384x1 S16384 [] [0] [] [0] [] 1 ![1]
  gather_S2048x2048_S16384x1_S16384x2048_1_0_n_n_0_1_12048_wf : GatherDims.WF S2048x2048 S16384x1 S16384x2048 [1] [0] [] [0] [] 1 ![1, 2048]

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def gather_S2048x2048_S2048x1_S2048x2048_0_1_n_n_1_1_20481 : GatherDims S2048x2048 S2048x1 S2048x2048 where
  offsetDims := [0]
  collapsedSliceDims := [1]
  operandBatchingDims := []
  startIndicesBatchingDims := []
  startIndexMap := [1]
  indexVectorDim := 1
  sliceSizes := ![2048, 1]
  wf := gather_S2048x2048_S2048x1_S2048x2048_0_1_n_n_1_1_20481_wf
def gather_S2048_S16384x1_S16384_n_0_n_n_0_1_1 : GatherDims S2048 S16384x1 S16384 where
  offsetDims := []
  collapsedSliceDims := [0]
  operandBatchingDims := []
  startIndicesBatchingDims := []
  startIndexMap := [0]
  indexVectorDim := 1
  sliceSizes := ![1]
  wf := gather_S2048_S16384x1_S16384_n_0_n_n_0_1_1_wf
def gather_S2048x2048_S16384x1_S16384x2048_1_0_n_n_0_1_12048 : GatherDims S2048x2048 S16384x1 S16384x2048 where
  offsetDims := [1]
  collapsedSliceDims := [0]
  operandBatchingDims := []
  startIndicesBatchingDims := []
  startIndexMap := [0]
  indexVectorDim := 1
  sliceSizes := ![1, 2048]
  wf := gather_S2048x2048_S16384x1_S16384x2048_1_0_n_n_0_1_12048_wf

class Facts : Prop extends Facts₀ where

variable [Facts]
-- ==== Proof.Spec.lean ====
/-
  The centre loss with an island term, as mathematics.

  Data: class centres `cen` (2048 rows of 2048 reals), their row-normalised copy `cn`, features `feat` (16384 rows),
  a class word per sample `lab`, and a list of 2048 class words `tl`.

  For a class row `v` the island contribution is the sum over the list positions `j` of
  `(⟨cn v, cn (κ j)⟩ + 1) · [tl j ≠ v]`, where `κ j` is the row the list's word at `j` selects.  The result is
  `0.01 · Σ_b contrib (lab b) + (0.5 · Σ_b Σ_d (feat b d − cen (lab b) d)²) / 16384`.

  One program reaches this by counting: it builds, per block of 512 samples, the number of samples of every class
  (a sum of 0/1 indicator values) and the block's squared distance with the centre row picked by an indicator-weighted
  sum over all classes, and then pairs every class's contribution with its count.  The other picks rows directly.
  The two agree when every sample's class word is a row number: an indicator-weighted sum over the classes has exactly
  one non-zero term, and a contribution times a count of indicators is the sum of the contribution over the samples
  counted (multiplication distributes over a sum of non-negative extended reals, whatever the contribution is).
-/
import Idealize.ShloMosaic.Lib.ValueIdx
import Idealize.ShloMosaic.PureOps.Ideal.Laws

noncomputable section

namespace CenterIsland

open Idealize.ShloMosaic Idealize.ShloMosaic.ValueIdx

/-- The 2048 × 2048 tables (centres, normalised centres, gathered rows). -/
abbrev Sq : Shape := ⟨2, ![2048, 2048]⟩
/-- The 16384 × 2048 feature table. -/
abbrev Sf : Shape := ⟨2, ![16384, 2048]⟩

/-! ## The words both programs carry, never evaluated -/

def zero : EReal := Ideal.ofBits .f32 0x00000000#32
def one : EReal := Ideal.ofBits .f32 0x3F800000#32
def lam : EReal := Ideal.ofBits .f32 0x3C23D70A#32
def half : EReal := Ideal.ofBits .f32 0x3F000000#32
def nB : EReal := Ideal.ofBits .f32 0x46800000#32

/-- A truth bit as an extended real: 0 or 1. -/
def bitE (b : BitVec 1) : EReal := ((b.toNat : ℝ) : EReal)

/-- A negative index counts from the end of a 2048-row table. -/
def wrapNeg (w : BitVec 32) : BitVec 32 := Scalar.select (IntOp.cmpi .slt w 0#32) (IntOp.addi w 2048#32) w

/-- The row a start index selects in a 2048-row table: read signed, clamped into the table. -/
def clampRow (w : BitVec 32) : Fin 2048 := ⟨min w.toInt.toNat 2047, by omega⟩

/-- The sample at position `r` of block `blk` (blocks of 512). -/
def sampleOf (blk : Fin 32) (r : Fin 512) : Fin 16384 := ⟨blk.val * 512 + r.val, by omega⟩

/-! ## The counting program's pieces -/

/-- Class row `v`'s island contribution, from the normalised centres and the rows gathered for the list. -/
def contribK (cn cnt : Sq.Idx → EReal) (tl : Fin 2048 → BitVec 32) (v : Fin 2048) : EReal :=
  ∑ j : Fin 2048, ((∑ d : Fin 2048, cn (ix2 v d) * cnt (ix2 j d)) + one) * bitE (IntOp.cmpi .ne (tl j) (BitVec.ofNat 32 v.val))

/-- How many samples of block `blk` carry class `cls`: a sum of indicator values. -/
def countsK (lab : Fin 16384 → BitVec 32) (blk : Fin 32) (cls : Fin 2048) : EReal :=
  ∑ r : Fin 512, bitE (IntOp.cmpi .eq (lab (sampleOf blk r)) (BitVec.ofNat 32 cls.val))

/-- The centre row an indicator-weighted sum over all classes picks for sample `b`, at column `d`. -/
def pickedK (lab : Fin 16384 → BitVec 32) (cen : Sq.Idx → EReal) (b : Fin 16384) (d : Fin 2048) : EReal :=
  ∑ k : Fin 2048, bitE (IntOp.cmpi .eq (lab b) (BitVec.ofNat 32 k.val)) * cen (ix2 k d)

/-- Block `blk`'s squared distance to the picked centre rows. -/
def lossK (lab : Fin 16384 → BitVec 32) (feat : Sf.Idx → EReal) (cen : Sq.Idx → EReal) (blk : Fin 32) : EReal :=
  ∑ r : Fin 512, ∑ d : Fin 2048,
    (feat (ix2 (sampleOf blk r) d) - pickedK lab cen (sampleOf blk r) d) * (feat (ix2 (sampleOf blk r) d) - pickedK lab cen (sampleOf blk r) d)

/-- The counting program's result from its three partial tables. -/
def tailK (contrib : Fin 2048 → EReal) (counts : Fin 32 → Fin 2048 → EReal) (loss : Fin 32 → EReal) : EReal :=
  lam * (zero + ∑ v : Fin 2048, contrib v * (zero + ∑ blk : Fin 32, counts blk v))
    + Ideal.div (half * (zero + ∑ blk : Fin 32, loss blk)) nB

/-- The counting program's result. -/
def kernelScalar (cn cnt cen : Sq.Idx → EReal) (feat : Sf.Idx → EReal) (tl : Fin 2048 → BitVec 32) (lab : Fin 16384 → BitVec 32) : EReal :=
  tailK (contribK cn cnt tl) (countsK lab) (lossK lab feat cen)

/-! ## The direct program -/

/-- Class row `v`'s island contribution, the list's rows taken straight from the normalised centres. -/
def contribR (cn : Sq.Idx → EReal) (κ : Fin 2048 → Fin 2048) (tl : Fin 2048 → BitVec 32) (v : Fin 2048) : EReal :=
  zero + ∑ j : Fin 2048, ((∑ d : Fin 2048, cn (ix2 v d) * cn (ix2 (κ j) d)) + one) * bitE (IntOp.cmpi .ne (tl j) (BitVec.ofNat 32 v.val))

/-- The direct program's result, every sample's row `labR b` picked directly. -/
def refScalar (cn cen : Sq.Idx → EReal) (feat : Sf.Idx → EReal) (κ : Fin 2048 → Fin 2048) (tl : Fin 2048 → BitVec 32)
    (labR : Fin 16384 → Fin 2048) : EReal :=
  lam * (zero + ∑ b : Fin 16384, contribR cn κ tl (labR b))
    + Ideal.div (half * (zero + ∑ b : Fin 16384, ∑ d : Fin 2048,
        (feat (ix2 b d) - cen (ix2 (labR b) d)) * (feat (ix2 b d) - cen (ix2 (labR b) d)))) nB

end CenterIsland

end
-- ==== Proof.KernelHost.lean ====
/-
  The host operations around the two regions, read.
  Before the island region: the centres in the narrow format; the row norms, the normalised centres `cnK`; the list's
  words with negative ones counted from the end `ntK`, the rows of the normalised centres they select `cntK`; the list
  as a row.  After both regions: the per-block counts summed over the blocks, each class's contribution times its count
  summed over the classes and scaled, the per-block distances summed, halved and divided by the number of samples.
-/
import proofs.«425217_j28561532519009_3_alg».proof.Proof.Gen.KernelIdeal.Frame
import proofs.«425217_j28561532519009_3_alg».proof.Proof.Spec
import proofs.«425217_j28561532519009_3_alg».proof.Proof.Gen.ReferenceIdeal.Read
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Run
import Idealize.ShloMosaic.PureOps.Ideal.Laws

set_option maxRecDepth 16384

noncomputable section

namespace Cert.KernelIdeal.HostValue

open Cert.KernelIdeal Cert.KernelIdeal.Gen CenterIsland
open Idealize.ShloMosaic Idealize.ShloMosaic.ValueIdx Idealize.ShloMosaic.TcCoe Idealize.SL.Sem Idealize.ShloMosaic.StableHlo
open Idealize.ShloMosaic.Pipeline (Dat)

variable {F : FTy → Type} [FloatOps F]

/-- The normalised centres, in the narrow format: each row divided by its Euclidean norm. -/
def cnK (x3 : (⟨S2048x2048, .f32⟩ : BufTy).Contents (Elt F)) : (⟨S2048x2048, .bf16⟩ : BufTy).Contents (Elt F) :=
  truncf .bf16 (Host.divf x3 (broadcastInDim S2048x2048 ![0, 1] Facts₀.bcast_S2048x1_S2048x2048_0_1
    (Host.sqrt (broadcastInDim S2048x1 ![0] Facts₀.bcast_S2048_S2048x1_0
      (Host.reduceAdd (mulf x3 x3) (constant S_ .f32 0x00000000#32) Facts₀.reducesTo_S2048x2048_S2048_d1 Facts₀.h_S_))))) Facts₀.bitsLt_bf16_f32

/-- The list's start-index column: a negative word counts from the end. -/
def ntK (x2 : (⟨S2048, .i32⟩ : BufTy).Contents (Elt F)) : (⟨S2048x1, .i32⟩ : BufTy).Contents (Elt F) :=
  broadcastInDim S2048x1 ![0] Facts₀.bcast_S2048_S2048x1_0
    (select (cmpi .slt x2 (broadcastInDim S2048 ![] Facts₀.bcast_S_S2048 (constantI S_ 32 0#32)))
      (addi x2 (broadcastInDim S2048 ![] Facts₀.bcast_S_S2048 (constantI S_ 32 2048#32))) x2)

/-- The rows of the normalised centres the list selects. -/
def cntK (x2 : (⟨S2048, .i32⟩ : BufTy).Contents (Elt F)) (x3 : (⟨S2048x2048, .f32⟩ : BufTy).Contents (Elt F)) :
    (⟨S2048x2048, .bf16⟩ : BufTy).Contents (Elt F) :=
  Host.gather gather_S2048x2048_S2048x1_S2048x2048_1_0_n_n_0_1_12048 (cnK x3) (ntK x2)

variable (m : (ℓ : Loc nD τ sig) → Buf (Elt F) ℓ) (ρ : Dev nD → PrngReg)

/-! ## The island region's entry -/

theorem V3_v4 (c : Dev nD) : V3 m ρ c main_v4 = cnK (m ((c.tc : Thread nD τ).loc main_arg3)) := by
  show StableHlo.after hostOps0_2 (StableHlo.after hostOps0_1 (StableHlo.after hostOps0 (W0 m ρ c))) (Proc.devRef .tc main_v4) = _
  after_results
  rfl

theorem V3_v11 (c : Dev nD) :
    V3 m ρ c main_v11 = cntK (m ((c.tc : Thread nD τ).loc main_arg2)) (m ((c.tc : Thread nD τ).loc main_arg3)) := by
  show StableHlo.after hostOps0_2 (StableHlo.after hostOps0_1 (StableHlo.after hostOps0 (W0 m ρ c))) (Proc.devRef .tc main_v11) = _
  after_results
  rfl

theorem V3_v12 (c : Dev nD) :
    V3 m ρ c main_v12 = shapeCast S1x2048 (m ((c.tc : Thread nD τ).loc main_arg2)) Facts₀.shapeCasts_S2048_S1x2048 := by
  show StableHlo.after hostOps0_2 (StableHlo.after hostOps0_1 (StableHlo.after hostOps0 (W0 m ρ c))) (Proc.devRef .tc main_v12) = _
  after_results
  rfl

/-! ## The centre-loss region's entry -/

theorem V4_arg0 (c : Dev nD) : V4 m ρ c main_arg0 = m ((c.tc : Thread nD τ).loc main_arg0) := by
  refine (W4_of_ne m ρ c main_arg0 (by decide)).trans ?_
  show StableHlo.after hostOps0_2 (StableHlo.after hostOps0_1 (StableHlo.after hostOps0 (W0 m ρ c))) (Proc.devRef .tc main_arg0) = _
  after_results

theorem V4_arg1 (c : Dev nD) : V4 m ρ c main_arg1 = m ((c.tc : Thread nD τ).loc main_arg1) := by
  refine (W4_of_ne m ρ c main_arg1 (by decide)).trans ?_
  show StableHlo.after hostOps0_2 (StableHlo.after hostOps0_1 (StableHlo.after hostOps0 (W0 m ρ c))) (Proc.devRef .tc main_arg1) = _
  after_results

theorem V4_v0 (c : Dev nD) :
    V4 m ρ c main_v0 = truncf .bf16 (m ((c.tc : Thread nD τ).loc main_arg3)) Facts₀.bitsLt_bf16_f32 := by
  refine (W4_of_ne m ρ c main_v0 (by decide)).trans ?_
  show StableHlo.after hostOps0_2 (StableHlo.after hostOps0_1 (StableHlo.after hostOps0 (W0 m ρ c))) (Proc.devRef .tc main_v0) = _
  after_results

/-! ## Reading the gathered rows and the list's row at an index (extended reals) -/

/-- The dimension numbers of the row gather: axis 0 of the table is collapsed and start-indexed by the column of
    start indices, axis 1 is carried whole as the result's offset axis. -/
private abbrev gd : GatherDims S2048x2048 S2048x1 S2048x2048 := gather_S2048x2048_S2048x1_S2048x2048_1_0_n_n_0_1_12048

/-- The start-index column at row j is the list's word at j, a negative word counted from the end: the column is the
    broadcast of the selected words along a unit axis, and select, compare and add act pointwise. -/
theorem ntK_apply (x2 : (⟨S2048, .i32⟩ : BufTy).Contents (Elt Ideal)) (j : Fin 2048) :
    ntK x2 (ix2 j (0 : Fin 1)) = wrapNeg (x2 (ix1 j)) := by
  unfold ntK
  rw [broadcastInDim_apply _ _ _ _ (ix1 j) (fun a => by match a with | ⟨0, _⟩ => rfl)]
  rfl

/-- Row j of the gathered table is the row of the normalised centres the list's word at j selects.
    The operand index of result (j, d) is, axis by axis, start + batch coordinate + offset coordinate.  There is no
    batching axis.  On axis 0 (collapsed, so no offset) the start is the column's entry at row j read signed and clamped
    to [0, 2048 − 1]; on axis 1 (not start-indexed) the start is 0 and the offset coordinate is d. -/
theorem cntK_apply (x2 : (⟨S2048, .i32⟩ : BufTy).Contents (Elt Ideal)) (x3 : (⟨S2048x2048, .f32⟩ : BufTy).Contents (Elt Ideal))
    (j d : Fin 2048) :
    cntK x2 x3 (ix2 j d) = cnK x3 (ix2 (clampRow (wrapNeg (x2 (ix1 j)))) d) := by
  unfold cntK Host.gather
  refine congrArg (cnK (F := Ideal) x3) (funext fun a => Fin.ext ?_)
  match a with
  | ⟨0, _⟩ =>
    show gd.start (ix2 j d) (ntK x2) 0 + gd.batchCoord (ix2 j d) 0 + gd.offCoord (ix2 j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    -- the start index of result (j, d) is read at (j, 0): j on the batch axis, component 0 on the index-vector axis
    have hsi : gd.siIdx (ix2 j d) ⟨List.idxOf (0 : Fin 2) gd.startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi, ntK_apply]
    rfl
  | ⟨1, _⟩ =>
    show gd.start (ix2 j d) (ntK x2) 1 + gd.batchCoord (ix2 j d) 1 + gd.offCoord (ix2 j d) 1 = d.val
    rw [GatherDims.batchCoord_eq_zero _ _ _ List.not_mem_nil]
    unfold GatherDims.start
    rw [dif_neg (show (1 : Fin 2) ∉ gd.startIndexMap from by decide)]
    unfold GatherDims.offCoord
    rw [dif_pos (show (1 : Fin 2) ∈ gd.sKept from by decide)]
    simp only [Nat.zero_add, Nat.add_zero]
    rfl

/-- The list laid out as a row reads the list: position (0, j) of the 1 × 2048 row and position j of the list have the
    same row-major position, 0 · 2048 + j = j. -/
theorem tlrow_apply (x2 : (⟨S2048, .i32⟩ : BufTy).Contents (Elt F)) (j : Fin 2048) :
    shapeCast S1x2048 x2 Facts₀.shapeCasts_S2048_S1x2048 (ix2 (0 : Fin 1) j) = x2 (ix1 j) := by
  refine shapeCast_apply _ _ _ (ix1 j) ?_
  rw [Shape.rowMajor_val_one, Shape.rowMajor_val_two]
  show j.val = (0 : Nat) * 2048 + j.val
  omega

/-- The normalised centres are the same table in both programs: each is the centres divided by the broadcast square
    root of the row sums of squares, the same operations over the same shapes, and rounding to the narrow format is the
    identity over the extended reals. -/
theorem cn_same (x3 : (⟨S2048x2048, .f32⟩ : BufTy).Contents (Elt Ideal)) :
    (cnK (F := Ideal) x3 : CenterIsland.Sq.Idx → EReal) = Cert.ReferenceIdeal.Read.val_main_v2 (F := Ideal) x3 := by
  rfl

end Cert.KernelIdeal.HostValue

end
-- ==== Proof.KernelTail.lean ====
/-
  The host operations after the two regions, read: the per-block counts summed over the blocks, each class's
  contribution times its count summed over the classes and scaled, the per-block distances summed, halved and divided by
  the number of samples, and the two terms added.
-/
import proofs.«425217_j28561532519009_3_alg».proof.Proof.Gen.KernelIdeal.Frame
import proofs.«425217_j28561532519009_3_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Run
import Idealize.ShloMosaic.PureOps.Ideal.Laws

set_option maxRecDepth 16384

noncomputable section

namespace Cert.KernelIdeal.HostValue

open Cert.KernelIdeal Cert.KernelIdeal.Gen CenterIsland
open Idealize.ShloMosaic Idealize.ShloMosaic.ValueIdx Idealize.ShloMosaic.TcCoe Idealize.SL.Sem Idealize.ShloMosaic.StableHlo
open Idealize.ShloMosaic.Pipeline (Dat)

/-! ## The tail as one function of the three tables, and the fold through its operations -/

/-- The host tail as one function of the three arrays it reads: the class contributions, the per-block class counts
    and the per-block distances. -/
def tailTerm (a : (⟨S2048, .f32⟩ : BufTy).Contents (Elt Ideal)) (b : (⟨S32x1x2048, .f32⟩ : BufTy).Contents (Elt Ideal))
    (d : (⟨S32x1x1, .f32⟩ : BufTy).Contents (Elt Ideal)) : (⟨S_, .f32⟩ : BufTy).Contents (Elt Ideal) :=
  addf
    (mulf (constant (F := Ideal) S_ .f32 0x3C23D70A#32)
      (Host.reduceAdd (F := Ideal)
        (mulf a (shapeCast S2048
          (Host.reduceAdd (F := Ideal) b (constant (F := Ideal) S_ .f32 0x00000000#32) reducesTo_S32x1x2048_S1x2048_d0 h_S_)
          shapeCasts_S1x2048_S2048))
        (constant (F := Ideal) S_ .f32 0x00000000#32) reducesTo_S2048_S_d0 h_S_))
    (Host.divf (F := Ideal)
      (mulf (constant (F := Ideal) S_ .f32 0x3F000000#32)
        (Host.reduceAdd (F := Ideal) d (constant (F := Ideal) S_ .f32 0x00000000#32) reducesTo_S32x1x1_S_d0_1_2 h_S_))
      (constant (F := Ideal) S_ .f32 0x46800000#32))

/-- The result buffer after the tail's fifteen operations is the tail's function of the three arrays as the regions left them. -/
theorem W6_tailTerm (m : (ℓ : Loc nD τ sig) → Buf (Elt Ideal) ℓ) (ρ : Dev nD → PrngReg) (c : Dev nD) :
    W6 m ρ c (Proc.devRef .tc main_v23)
      = tailTerm (W5 m ρ c (Proc.devRef .tc main_v13)) (W5 m ρ c (Proc.devRef .tc main_v14_0)) (W5 m ρ c (Proc.devRef .tc main_v14_1)) := by
  show StableHlo.after hostOps2 (W5 m ρ c) (Proc.devRef .tc main_v23) = _
  after_results
  rfl

/-! ## The tail read at its one index: three sums and a reshape -/

/-- The index set of a [32, 1, 1] table is the range of its first coordinate. -/
def blkEquiv : S32x1x1.Idx ≃ Fin 32 where
  toFun i := i 0
  invFun blk := ix3 blk (0 : Fin 1) (0 : Fin 1)
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- The counts summed over the blocks and read as a vector: at class `v`, zero plus the sum over the blocks of the
    block's count of `v`. -/
theorem countsSum_apply (b : FVec Ideal S32x1x2048 .f32) (v : Fin 2048) :
    shapeCast S2048
        (Host.reduceAdd (F := Ideal) b (constant (F := Ideal) S_ .f32 0x00000000#32) reducesTo_S32x1x2048_S1x2048_d0 h_S_)
        shapeCasts_S1x2048_S2048 (ix1 v)
      = zero + ∑ blk : Fin 32, b (ix3 blk (0 : Fin 1) v) := by
  rw [shapeCast_1a_a_apply]
  simp only [Host.reduceAdd, Ideal.hostReduceAdd_def]
  rw [Ideal.hostReduceAdd_single reducesTo_S32x1x2048_S1x2048_d0 (by decide)]
  refine congrArg (_ + ·) (Finset.sum_congr rfl fun k _ => ?_)
  exact congrArg b (funext fun a => Fin.ext (by match a with | ⟨0, _⟩ => rfl | ⟨1, _⟩ => rfl | ⟨2, _⟩ => rfl))

/-- A vector of 2048 entries summed into a scalar: zero plus the sum of its entries. -/
theorem classSum_apply (x : FVec Ideal S2048 .f32) (i : S_.Idx) :
    Host.reduceAdd (F := Ideal) x (constant (F := Ideal) S_ .f32 0x00000000#32) reducesTo_S2048_S_d0 h_S_ i
      = zero + ∑ v : Fin 2048, x (ix1 v) := by
  simp only [Host.reduceAdd, Ideal.hostReduceAdd_def]
  rw [Ideal.hostReduceAdd_total reducesTo_S2048_S_d0 (fun b => b.elim0)]
  refine congrArg (_ + ·) ?_
  exact (idxEquiv1.symm.sum_comp x).symm

/-- The per-block distances summed over all three axes into a scalar: zero plus the sum over the blocks. -/
theorem lossSum_apply (d : FVec Ideal S32x1x1 .f32) (i : S_.Idx) :
    Host.reduceAdd (F := Ideal) d (constant (F := Ideal) S_ .f32 0x00000000#32) reducesTo_S32x1x1_S_d0_1_2 h_S_ i
      = zero + ∑ blk : Fin 32, d (ix3 blk (0 : Fin 1) (0 : Fin 1)) := by
  simp only [Host.reduceAdd, Ideal.hostReduceAdd_def]
  rw [Ideal.hostReduceAdd_total reducesTo_S32x1x1_S_d0_1_2 (fun b => b.elim0)]
  refine congrArg (_ + ·) ?_
  exact (blkEquiv.symm.sum_comp d).symm

/-- The tail at its one index is the counting program's closing formula of the three tables' entries. -/
theorem tailTerm_apply (a : FVec Ideal S2048 .f32) (b : FVec Ideal S32x1x2048 .f32) (d : FVec Ideal S32x1x1 .f32) (i : S_.Idx) :
    tailTerm a b d i
      = tailK (fun v => a (ix1 v)) (fun blk v => b (ix3 blk (0 : Fin 1) v)) (fun blk => d (ix3 blk (0 : Fin 1) (0 : Fin 1))) := by
  have h0 : tailTerm a b d i
      = lam * (Host.reduceAdd (F := Ideal)
            (mulf a (shapeCast S2048
              (Host.reduceAdd (F := Ideal) b (constant (F := Ideal) S_ .f32 0x00000000#32) reducesTo_S32x1x2048_S1x2048_d0 h_S_)
              shapeCasts_S1x2048_S2048))
            (constant (F := Ideal) S_ .f32 0x00000000#32) reducesTo_S2048_S_d0 h_S_ i)
        + Ideal.div (half * (Host.reduceAdd (F := Ideal) d (constant (F := Ideal) S_ .f32 0x00000000#32) reducesTo_S32x1x1_S_d0_1_2 h_S_ i)) nB := rfl
  rw [h0, classSum_apply, lossSum_apply]
  unfold tailK
  refine congrArg (fun z => lam * (zero + z) + _) (Finset.sum_congr rfl fun v _ => ?_)
  rw [mulf_apply, countsSum_apply]

/-! ## The exit: the host tail over what the two regions leave -/

/-- The result buffer holds the tail's scalar of the three partial tables the regions leave. -/
theorem W6_v23 (m : (ℓ : Loc nD τ sig) → Buf (Elt Ideal) ℓ) (ρ : Dev nD → PrngReg) (c : Dev nD) :
    W6 m ρ c (Proc.devRef .tc main_v23)
      = fun _ => tailK (fun v => (dat0 (V3 m ρ) c).arrAt 3 cfg0.N (ix1 v))
          (fun blk v => (dat1 (V4 m ρ) c).arrAt 3 cfg1.N (ix3 blk (0 : Fin 1) v))
          (fun blk => (dat1 (V4 m ρ) c).arrAt 4 cfg1.N (ix3 blk (0 : Fin 1) (0 : Fin 1))) := by
  rw [W6_tailTerm]
  -- the contributions are region 0's output, untouched by region 1; the counts and the distances are region 1's outputs
  have hA : W5 m ρ c (Proc.devRef .tc main_v13) = (dat0 (V3 m ρ) c).arrAt 3 cfg0.N :=
    (W5_of_ne m ρ c main_v13 (by decide)).trans (W4_arr m ρ c 3)
  have hB : W5 m ρ c (Proc.devRef .tc main_v14_0) = (dat1 (V4 m ρ) c).arrAt 3 cfg1.N := W5_arr m ρ c 3
  have hC : W5 m ρ c (Proc.devRef .tc main_v14_1) = (dat1 (V4 m ρ) c).arrAt 4 cfg1.N := W5_arr m ρ c 4
  rw [hA, hB, hC]
  funext i
  exact tailTerm_apply _ _ _ i

end Cert.KernelIdeal.HostValue

end
-- ==== Proof.Region0.lean ====
/-
  The island region: what its output array holds after the run.
  Grid point t computes 256 class rows; row v's entry is the sum over the list positions j of
  (⟨cn v, cnt j⟩ + 1) · [tl j ≠ v], the inner product a matrix product of the 256 rows taken from the normalised
  centres against the whole gathered table, contracted along the columns of both.
-/
import proofs.«425217_j28561532519009_3_alg».proof.Proof.Gen.KernelIdeal.Frame
import proofs.«425217_j28561532519009_3_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Run
import Idealize.ShloMosaic.PureOps.Ideal.Laws

set_option maxRecDepth 16384

noncomputable section

namespace Cert.KernelIdeal.Island

open Cert.KernelIdeal Cert.KernelIdeal.Gen CenterIsland
open Idealize.ShloMosaic Idealize.ShloMosaic.ValueIdx Idealize.ShloMosaic.TcCoe Idealize.SL.Sem
open Idealize.ShloMosaic.Pipeline (Dat)

open Idealize.ShloMosaic.Tactic

/-! ## What the body leaves in the output's buffer -/

theorem hz1 : (![0] : Fin 1 → Nat) = fun _ => 0 := funext fun a => by fin_cases a <;> rfl
theorem hz2 : (![0, 0] : Fin 2 → Nat) = fun _ => 0 := funext fun a => by fin_cases a <;> rfl

section AnyField
variable {F : FTy → Type} [FloatOps F]

/-- What the body leaves in the output's staging buffer: its one covering store's payload, computed from the 256 rows the
    body loads from the first buffer at the row offset the grid coordinate gives, and from the whole of the other two. -/
theorem island_piece (c : Dev nD) (i : grid0.Coords) (a1 : Memref sig .tc .vmem S2048x2048 .bf16) (h1 : a1.IsWhole) (a2 : Memref sig .tc .vmem S2048x2048 .bf16) (h2 : a2.IsWhole) (a3 : Memref sig .tc .vmem S1x2048 .i32) (h3 : a3.IsWhole) (a4 : Memref sig .tc .vmem S256 .f32) (h4 : a4.IsWhole)
    (x0 : Vec F S2048x2048 .bf16) (x1 : Vec F S2048x2048 .bf16) (x2 : Vec F S1x2048 .i32) :
    out0_A_3 c i a1 h1 a2 h2 a3 h3 a4 h4 x0 x1 x2 = k0_pay1 i (View.ld x0 (Rect.unit (s := S2048x2048) (k0_off1 i) S256x2048.size (k0_off1_inb i))) x1 x2 := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero hz1]
  simp only [View.readAt_eq_ld, h1.read_unread, h2.read_unread, h3.read_unread, View.ld_unit_zero (S := S2048x2048) hz2, View.ld_unit_zero (S := S1x2048) hz2]

end AnyField

/-! ## The payload at an entry

The matrix product contracts the columns of both operands: entry (r, j) is the inner product of row r of the left
operand with row j of the right one. -/

theorem gram_lhs_0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem gram_lhs_1 (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
theorem gram_rhs_0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem gram_rhs_1 (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- Entry (r, j) of the product is the inner product of row r of the left operand with row j of the right one. -/
theorem gram_apply (y0 : FVec Ideal S256x2048 .bf16) (y1 : FVec Ideal S2048x2048 .bf16) (r : Fin 256) (j : Fin 2048) :
    matmul dot_S256x2048_S2048x2048_S256x2048_1_1_0_0_n_n none y0 y1 (constant (F := Ideal) S256x2048 .f32 0x00000000#32) (ix2 r j)
      = ∑ d : Fin 2048, y0 (ix2 r d) * y1 (ix2 j d) := by
  refine (Ideal.matmul_constant_zero_apply dot_S256x2048_S2048x2048_S256x2048_1_1_0_0_n_n none y0 y1 (ix2 r j)).trans ?_
  rw [← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 r j) ((contrEquiv1 dot_S256x2048_S2048x2048_S256x2048_1_1_0_0_n_n 2048 rfl rfl).symm k) = ix2 r k := funext fun a => Fin.ext (by
    match a with
    | ⟨0, _⟩ => exact gram_lhs_0 _ _
    | ⟨1, _⟩ => exact (gram_lhs_1 _ _).trans hk)
  have er : dot_S256x2048_S2048x2048_S256x2048_1_1_0_0_n_n.rhsIdx (ix2 r j) ((contrEquiv1 dot_S256x2048_S2048x2048_S256x2048_1_1_0_0_n_n 2048 rfl rfl).symm k) = ix2 j k := funext fun a => Fin.ext (by
    match a with
    | ⟨0, _⟩ => exact gram_rhs_0 _ _
    | ⟨1, _⟩ => exact (gram_rhs_1 _ _).trans hk)
  rw [el, er]

/-- A truth bit widened to a word and read as a signed integer is the bit's value, 0 or 1. -/
theorem mask_value (b : BitVec 1) : FloatOps.sitofp (F := Ideal) .f32 (b.setWidth 32) = bitE b := by
  show (((b.setWidth 32).toInt : ℝ) : EReal) = ((b.toNat : ℝ) : EReal)
  have h : (b.setWidth 32).toInt = (b.toNat : ℤ) := by revert b; decide
  rw [h, Int.cast_natCast]

/-- Entry r of the payload: the sum over the list positions j of (⟨row r of the loaded rows, row j of the table⟩ + 1)
    times the indicator that the list's word at j differs from the row's number, the number being the block's first
    row (256 times the grid coordinate) plus r, as words. -/
theorem island_row (i : grid0.Coords) (r : Fin 256) (v3 : FVec Ideal S256x2048 .bf16) (v5 : FVec Ideal S2048x2048 .bf16) (v11 : IVec S1x2048 32) :
    k0_pay1 (F := Ideal) i v3 v5 v11 (ix1 r)
      = ∑ j : Fin 2048, ((∑ d : Fin 2048, v3 (ix2 r d) * v5 (ix2 j d)) + one)
          * bitE (IntOp.cmpi .ne (v11 (ix2 (0 : Fin 1) j)) (IntOp.addi (Scalar.muli (BitVec.ofNat 32 (i 0).val) 256#32) (BitVec.ofNat 32 r.val))) := by
  unfold k0_pay1
  dsimp only
  refine (congrFun (shapeCast_shapeCast _ shapeCasts_S256_S256x1 shapeCasts_S256x1_S256) (ix1 r)).trans ?_
  refine (Ideal.multiReduction_add_single _ 0x00000000#32 reduces_S256x2048_S256 (.inl rfl) rfl (ix1 r)).trans ?_
  show ∑ k : Fin 2048, _ = _
  refine Finset.sum_congr rfl fun k _ => ?_
  have hl : reduces_S256x2048_S256.lift (ix1 r) k = ix2 r k := funext fun a => Fin.ext (by
    match a with
    | ⟨0, _⟩ => rfl
    | ⟨1, _⟩ => rfl)
  rw [hl, shapeCast_self v3, shapeCast_self v5, shapeCast_self v11]
  refine congrArg₂ (· * ·) (congrArg₂ (· + ·) (gram_apply v3 v5 r k) rfl) ?_
  refine (mask_value _).trans (congrArg bitE ?_)
  refine congrArg₂ (IntOp.cmpi .ne) ?_ ?_
  · exact broadcastTo_apply v11 broadcasts_S1x2048_S256x2048 (ix2 r k) (ix2 (0 : Fin 1) k) (fun a => by
      match a with
      | ⟨0, _⟩ => rfl
      | ⟨1, _⟩ => rfl)
  · exact congrArg (IntOp.addi _) (iota_single_apply .tc S256x2048 32 0 iota_S256x2048_d0_w32 (ix2 r k))

/-! ## A point's block of rows -/

/-- The grid's coordinate, the output's block index and the load's row offset at point t, decided over the eight points. -/
theorem point_facts : ∀ t : Fin cfg0.N, (grid0.coords t 0).val = t.val ∧ win0_3.index t (0 : Fin 1) = t.val
    ∧ k0_off1 (grid0.coords t) (0 : Fin 2) = 256 * t.val ∧ k0_off1 (grid0.coords t) (1 : Fin 2) = 0 :=
  (by decide +kernel : ∀ t : Fin grid0.N, _)

/-- The row's number as the body computes it in words, 256 · a + b, is that number's word. -/
theorem row_word (a b : Nat) : IntOp.addi (Scalar.muli (BitVec.ofNat 32 a) 256#32) (BitVec.ofNat 32 b) = BitVec.ofNat 32 (256 * a + b) := by
  show BitVec.ofNat 32 a * BitVec.ofNat 32 256 + BitVec.ofNat 32 b = _
  rw [BitVec.ofNat_add, BitVec.ofNat_mul, BitVec.mul_comm]

/-- Point t's payload at r, over whole tables: the rows loaded are rows 256·t … 256·t + 255 of the first table, so the
    entry is the contribution of class row 256·t + r. -/
theorem island_block_row (t : Fin cfg0.N) (r : Fin 256) (x0 x1 : Vec Ideal S2048x2048 .bf16) (x2 : Vec Ideal S1x2048 .i32) :
    k0_pay1 (F := Ideal) (grid0.coords t) (View.ld x0 (Rect.unit (s := S2048x2048) (k0_off1 (grid0.coords t)) S256x2048.size (k0_off1_inb (grid0.coords t)))) x1 x2 (ix1 r)
      = contribK x0 x1 (fun j => x2 (ix2 (0 : Fin 1) j)) ⟨256 * t.val + r.val, by have := t.isLt; have hN : cfg0.N = 8 := N_0; omega⟩ := by
  obtain ⟨hc, -, ho0, ho1⟩ := point_facts t
  refine (island_row (grid0.coords t) r _ x1 x2).trans ?_
  unfold contribK
  refine Finset.sum_congr rfl fun j _ => ?_
  rw [hc, row_word]
  refine congrArg₂ (· * ·) (congrArg₂ (· + ·) (Finset.sum_congr rfl fun d _ => congrArg₂ (· * ·) ?_ rfl) rfl) rfl
  show x0 ((Rect.unit (s := S2048x2048) (k0_off1 (grid0.coords t)) S256x2048.size (k0_off1_inb (grid0.coords t))).emb (ix2 r d)) = _
  refine congrArg x0 (funext fun a => Fin.ext ?_)
  match a with
  | ⟨0, _⟩ => show k0_off1 (grid0.coords t) (0 : Fin 2) + 1 * r.val = 256 * t.val + r.val; rw [ho0]; omega
  | ⟨1, _⟩ => show k0_off1 (grid0.coords t) (1 : Fin 2) + 1 * d.val = d.val; rw [ho1]; omega

/-- A block of the output window is not cut: what is written back is what the buffer holds. -/
theorem cut_row (t : Fin cfg0.N) (X : S256.Idx → EReal) (r : Fin 256) : (cfg0.win 3).cut (grid0.coords t) X (ix1 r) = X (ix1 r) := rfl

/-! ## From the blocks to the array -/

variable (V : (c : Dev nD) → (b : Ref sig .tc) → Buf (Elt Ideal) ((c : Thread nD τ).loc b))

/-- The three input windows are whole arrays: every point's block is the array itself. -/
theorem normed_blk (c : Dev nD) (t : Fin cfg0.N) : (iblk0 V c 0 t : Vec Ideal S2048x2048 .bf16) = V c main_v4 := by
  funext y
  unfold iblk0
  rw [View.read_apply]
  show V c main_v4 _ = V c main_v4 _
  refine congrArg (V c main_v4) (funext fun a => Fin.ext ?_)
  match a with
  | ⟨0, _⟩ => show win0_0.index t (0 : Fin 2) * 2048 + 1 * (y 0).val = (y 0).val; rw [show win0_0.index t (0 : Fin 2) = 0 from rfl]; omega
  | ⟨1, _⟩ => show win0_0.index t (1 : Fin 2) * 2048 + 1 * (y 1).val = (y 1).val; rw [show win0_0.index t (1 : Fin 2) = 0 from rfl]; omega

theorem gathered_blk (c : Dev nD) (t : Fin cfg0.N) : (iblk0 V c 1 t : Vec Ideal S2048x2048 .bf16) = V c main_v11 := by
  funext y
  unfold iblk0
  rw [View.read_apply]
  show V c main_v11 _ = V c main_v11 _
  refine congrArg (V c main_v11) (funext fun a => Fin.ext ?_)
  match a with
  | ⟨0, _⟩ => show win0_1.index t (0 : Fin 2) * 2048 + 1 * (y 0).val = (y 0).val; rw [show win0_1.index t (0 : Fin 2) = 0 from rfl]; omega
  | ⟨1, _⟩ => show win0_1.index t (1 : Fin 2) * 2048 + 1 * (y 1).val = (y 1).val; rw [show win0_1.index t (1 : Fin 2) = 0 from rfl]; omega

theorem list_blk (c : Dev nD) (t : Fin cfg0.N) : (iblk0 V c 2 t : Vec Ideal S1x2048 .i32) = V c main_v12 := by
  funext y
  unfold iblk0
  rw [View.read_apply]
  show V c main_v12 _ = V c main_v12 _
  refine congrArg (V c main_v12) (funext fun a => Fin.ext ?_)
  match a with
  | ⟨0, _⟩ => show win0_2.index t (0 : Fin 2) * 1 + 1 * (y 0).val = (y 0).val; rw [show win0_2.index t (0 : Fin 2) = 0 from rfl]; omega
  | ⟨1, _⟩ => show win0_2.index t (1 : Fin 2) * 2048 + 1 * (y 1).val = (y 1).val; rw [show win0_2.index t (1 : Fin 2) = 0 from rfl]; omega

/-- The island array the region leaves: at class row v, that row's contribution. -/
abbrev islandArr (c : Dev nD) : S2048.Idx → EReal :=
  fun i => contribK (V c main_v4) (V c main_v11) (fun j => V c main_v12 (ix2 (0 : Fin 1) j)) ⟨(i 0).val, (i 0).isLt⟩

/-- What point t writes back is block t of the island array: entry r of its payload is the contribution of class
    row 256·t + r, the row block t holds at r. -/
theorem flushed_eq (c : Dev nD) (t : Fin cfg0.N) :
    (dat0 (F := Ideal) V c).flushed 3 t = ((cfg0.win 3).blk t).view.read (Elt Ideal) (islandArr V c) := by
  show (cfg0.win 3).cut (grid0.coords t) ((dat0 (F := Ideal) V c).after 3 t) = _
  rw [after0_3]
  unfold outsAt0
  rw [island_piece (F := Ideal) c (grid0.coords t) (ms0_0 t) (hs0_0 t) (ms0_1 t) (hs0_1 t) (ms0_2 t) (hs0_2 t) (ms0_3 t) (hs0_3 t) (iblk0 V c 0 t) (iblk0 V c 1 t) (iblk0 V c 2 t)]
  refine funext fun (j : S256.Idx) => ?_
  obtain ⟨r, rfl⟩ : ∃ r : Fin 256, j = ix1 r := ⟨j 0, eq_ix1 j⟩
  obtain ⟨-, hb, -, -⟩ := point_facts t
  refine (cut_row t _ r).trans ?_
  refine (island_block_row t r (iblk0 V c 0 t) (iblk0 V c 1 t) (iblk0 V c 2 t)).trans ?_
  refine (congrFun (congr (congr (congrArg contribK (normed_blk V c t)) (gathered_blk V c t)) (funext fun j => congrFun (list_blk V c t) (ix2 (0 : Fin 1) j))) _).trans ?_
  rw [View.read_apply]
  refine congrArg (contribK (V c main_v4) (V c main_v11) (fun j => V c main_v12 (ix2 (0 : Fin 1) j))) (Fin.ext ?_)
  show 256 * t.val + r.val = win0_3.index t (0 : Fin 1) * 256 + 1 * r.val
  rw [hb]; omega

/-- A class row is in point t's block iff it is one of the 256 rows from 256 · (the block's index) on. -/
theorem mem_row_blk (t : Fin cfg0.N) (i : S2048.Idx) :
    i ∈ ((cfg0.win 3).blk t).view.set ↔ ∀ a : Fin 1, win0_3.index t a * S256.size a ≤ (i a).val ∧ (i a).val < win0_3.index t a * S256.size a + S256.size a := by
  show i ∈ ((View.whole main_v13).slice (win0_3.rect t)).set ↔ _
  rw [View.set_slice_whole, Rect.mem_set_unit]
  exact Iff.rfl

/-- After the region the island array holds, at class row v, that row's contribution computed from the region's three
    input arrays as it found them: every point writes its block back, and class row v lies in the block of point ⌊v / 256⌋. -/
theorem island_final (c : Dev nD) :
    (dat0 (F := Ideal) V c).arrAt 3 cfg0.N
      = fun i : S2048.Idx => contribK (V c main_v4) (V c main_v11) (fun j => V c main_v12 (ix2 (0 : Fin 1) j)) ⟨(i 0).val, (i 0).isLt⟩ :=
  (dat0 (F := Ideal) V c).arrAt_eq_of_cover 3 (islandArr V c) (fun t _ => flushed_eq V c t) fun i => by
    have hi : (i 0).val < 2048 := (i 0).isLt
    have hN : cfg0.N = 8 := N_0
    refine ⟨⟨(i 0).val / 256, by omega⟩, flush0_3 _, ?_⟩
    obtain ⟨-, hb, -, -⟩ := point_facts ⟨(i 0).val / 256, by omega⟩
    rw [mem_row_blk]
    intro a
    match a with
    | ⟨0, _⟩ =>
      show win0_3.index ⟨(i 0).val / 256, _⟩ (0 : Fin 1) * 256 ≤ (i 0).val ∧ (i 0).val < win0_3.index ⟨(i 0).val / 256, _⟩ (0 : Fin 1) * 256 + 256
      rw [hb]
      show (i 0).val / 256 * 256 ≤ (i 0).val ∧ (i 0).val < (i 0).val / 256 * 256 + 256
      omega

end Cert.KernelIdeal.Island

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.Region1Counts.lean ====
/-
  The centre-loss region: what its counts array holds after the run.
  Grid point t takes the 512 samples t·512 … t·512 + 511.  From their label words it builds the 512 × 2048 table of
  0/1 indicator values [label of row r = class k], sums the table down its rows, and writes the 2048 column sums to
  row t of the [32, 1, 2048] counts array.  So after the 32 points the array holds, at (block, 0, class), the number
  of the block's samples whose label word is the class number — a sum of 512 indicator values.
  The proof reads the indicator table at one entry, then the column sum at one class, then shows that what point t
  writes back is block t of the array claimed, and that the 32 blocks cover the array.
-/
import proofs.«425217_j28561532519009_3_alg».proof.Proof.Gen.KernelIdeal.Frame
import proofs.«425217_j28561532519009_3_alg».proof.Proof.Spec
import proofs.«425217_j28561532519009_3_alg».proof.Proof.LibPlainDot
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Run
import Idealize.ShloMosaic.PureOps.Ideal.Laws

set_option maxRecDepth 16384

noncomputable section

namespace Cert.KernelIdeal.CenterLoss

open Cert.KernelIdeal Cert.KernelIdeal.Gen CenterIsland
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

namespace Counts

/-! ## The indicator table and its column sums, for any block of labels -/

/-- A one-bit word widened to 32 bits and read signed is the bit's value 0 or 1. -/
theorem bit_widen (b : BitVec 1) : (((b.setWidth 32).toInt : ℝ) : EReal) = bitE b := by
  unfold bitE
  have h : b = 0#1 ∨ b = 1#1 := by
    rcases b with ⟨⟨v, hv⟩⟩
    have : v = 0 ∨ v = 1 := by omega
    rcases this with rfl | rfl
    · left; rfl
    · right; rfl
  rcases h with rfl | rfl <;> rfl

/-- The indicator table at (row r, class k): 1 when the row's label word is the class number, else 0. -/
theorem pay1_apply (v0 : Vec Ideal S512 .i32) (r : Fin 512) (k : Fin 2048) :
    k1_pay1 (F := Ideal) v0 (ix2 r k) = bitE (IntOp.cmpi .eq (v0 (ix1 r)) (BitVec.ofNat 32 k.val)) := by
  unfold k1_pay1
  rw [sitofp_apply, extui_apply]
  refine Eq.trans ?_ (bit_widen _)
  show ((((cmpi .eq (broadcastTo S512x2048 (shapeCast S512x1 v0 shapeCasts_S512_S512x1) broadcasts_S512x1_S512x2048)
          (iota .tc S512x2048 32 [1] iota_S512x2048_d1_w32) (ix2 r k)).setWidth 32).toInt : ℝ) : EReal) = _
  have e : cmpi .eq (broadcastTo S512x2048 (shapeCast S512x1 v0 shapeCasts_S512_S512x1) broadcasts_S512x1_S512x2048)
          (iota .tc S512x2048 32 [1] iota_S512x2048_d1_w32) (ix2 r k) = IntOp.cmpi .eq (v0 (ix1 r)) (BitVec.ofNat 32 k.val) := by
    show IntOp.cmpi .eq (broadcastTo S512x2048 (shapeCast S512x1 v0 shapeCasts_S512_S512x1) broadcasts_S512x1_S512x2048 (ix2 r k))
          (iota .tc S512x2048 32 [1] iota_S512x2048_d1_w32 (ix2 r k)) = _
    rw [iota_single_apply]
    rw [broadcastTo_apply _ broadcasts_S512x1_S512x2048 (ix2 r k) (ix2 r (0 : Fin 1)) (fun a => by
      match a with
      | ⟨0, _⟩ => rfl
      | ⟨1, _⟩ => rfl)]
    rw [shapeCast_apply v0 shapeCasts_S512_S512x1 (ix2 r (0 : Fin 1)) (ix1 r) (by
      rw [Shape.rowMajor_val_one, Shape.rowMajor_val_two]; show r.val = r.val * 1 + 0; omega)]
  rw [e]

/-- The stored row at class k: the number of the block's rows whose label word is the class number. -/
theorem pay2_apply (v0 : Vec Ideal S512 .i32) (j : S1x1x2048.Idx) :
    k1_pay2 (F := Ideal) v0 j = ∑ r : Fin 512, bitE (IntOp.cmpi .eq (v0 (ix1 r)) (BitVec.ofNat 32 (j 2).val)) := by
  unfold k1_pay2
  have hj0 : (j 0).val = 0 := by have h : (j 0).val < 1 := (j 0).isLt; omega
  have hj1 : (j 1).val = 0 := by have h : (j 1).val < 1 := (j 1).isLt; omega
  have hj2 : (j 2).val < 2048 := (j 2).isLt
  rw [shapeCast_apply _ shapeCasts_S1x2048_S1x1x2048 j (ix2 (0 : Fin 1) (⟨(j 2).val, hj2⟩ : Fin 2048)) (by
    rw [Shape.rowMajor_val_two, Shape.rowMajor_val_three]
    show 0 * 2048 + (j 2).val = ((j 0).val * 1 + (j 1).val) * 2048 + (j 2).val
    rw [hj0, hj1])]
  rw [shapeCast_apply _ shapeCasts_S2048_S1x2048 (ix2 (0 : Fin 1) (⟨(j 2).val, hj2⟩ : Fin 2048)) (ix1 (⟨(j 2).val, hj2⟩ : Fin 2048)) (by
    rw [Shape.rowMajor_val_one, Shape.rowMajor_val_two]
    show (j 2).val = 0 * 2048 + (j 2).val
    omega)]
  refine (Ideal.multiReduction_add_single (k1_pay1 (F := Ideal) v0) 0x00000000#32 reduces_S512x2048_S2048 (.inl rfl) rfl (ix1 (⟨(j 2).val, hj2⟩ : Fin 2048))).trans ?_
  refine Finset.sum_congr rfl fun (r : Fin 512) _ => ?_
  have e : reduces_S512x2048_S2048.lift (ix1 (⟨(j 2).val, hj2⟩ : Fin 2048)) r = ix2 r (⟨(j 2).val, hj2⟩ : Fin 2048) := by
    funext a
    match a with
    | ⟨0, _⟩ => rfl
    | ⟨1, _⟩ => rfl
  rw [e]
  exact pay1_apply v0 r _

/-! ## From the blocks to the array -/

theorem hz1 : (![0] : Fin 1 → Nat) = fun _ => 0 := funext fun a => by fin_cases a <;> rfl
theorem hz3 : (![0, 0, 0] : Fin 3 → Nat) = fun _ => 0 := funext fun a => by fin_cases a <;> rfl

/-- The printed index maps, decided over the grid: point t takes label block t and writes row t of the counts array. -/
theorem idx_facts : ∀ t : Fin cfg1.N, win1_0.index t (0 : Fin 1) = t.val
    ∧ win1_3.index t (0 : Fin 3) = t.val ∧ win1_3.index t (1 : Fin 3) = 0 ∧ win1_3.index t (2 : Fin 3) = 0 :=
  (by decide +kernel : ∀ t : Fin grid1.N, _)

/-- What the counts array ends holding: at (block, 0, class) the number of the block's samples of that class. -/
def G3 (c : Dev nD) : S32x1x2048.Idx → EReal :=
  fun i => countsK (fun b => V c main_arg0 (ix1 b)) ⟨(i 0).val, (i 0).isLt⟩ ⟨(i 2).val, (i 2).isLt⟩

/-- What point t writes back is block t of that array. -/
theorem flushed3_eq (c : Dev nD) (t : Fin cfg1.N) :
    (dat1 (F := Ideal) V c).flushed 3 t = ((cfg1.win 3).blk t).view.read (Elt Ideal) (G3 V c) := by
  show (cfg1.win 3).cut (grid1.coords t) ((dat1 (F := Ideal) V c).after 3 t) = _
  rw [after1_3]
  unfold out1_3
  rw [View.canon_unit_zero hz3]
  simp only [View.ld_unit_zero (S := S512) hz1]
  funext j
  show k1_pay2 (F := Ideal) (iblk1 V c 0 t) j = G3 V c (((cfg1.win 3).blk t).view.emb j)
  rw [pay2_apply]
  obtain ⟨e0, e1, e2, e3⟩ := idx_facts t
  have hi0 : ((((cfg1.win 3).blk t).view.emb j) 0).val = t.val := by
    show win1_3.index t (0 : Fin 3) * 1 + 1 * (j 0).val = t.val
    have h : (j 0).val < 1 := (j 0).isLt
    omega
  have hi2 : ((((cfg1.win 3).blk t).view.emb j) 2).val = (j 2).val := by
    show win1_3.index t (2 : Fin 3) * 2048 + 1 * (j 2).val = (j 2).val
    omega
  unfold G3 countsK
  refine Finset.sum_congr rfl fun (r : Fin 512) _ => ?_
  have hlab : iblk1 V c 0 t (ix1 r)
      = V c main_arg0 (ix1 (sampleOf ⟨((((cfg1.win 3).blk t).view.emb j) 0).val, ((((cfg1.win 3).blk t).view.emb j) 0).isLt⟩ r)) := by
    show V c main_arg0 (((cfg1.win 0).blk t).view.emb (ix1 r)) = _
    refine congrArg (V c main_arg0) (funext fun a => Fin.ext ?_)
    match a with
    | ⟨0, _⟩ =>
      show win1_0.index t (0 : Fin 1) * 512 + 1 * r.val = ((((cfg1.win 3).blk t).view.emb j) 0).val * 512 + r.val
      rw [hi0, e0]; omega
  rw [hlab]
  show bitE (IntOp.cmpi .eq _ (BitVec.ofNat 32 (j 2).val)) = bitE (IntOp.cmpi .eq _ (BitVec.ofNat 32 ((((cfg1.win 3).blk t).view.emb j) 2).val))
  rw [hi2]

/-- An index of the counts array is in point t's block iff each coordinate is in the block's range on its axis. -/
theorem mem_blk3 (t : Fin cfg1.N) (i : S32x1x2048.Idx) :
    i ∈ ((cfg1.win 3).blk t).view.set ↔ ∀ a : Fin 3, win1_3.index t a * S1x1x2048.size a ≤ (i a).val
      ∧ (i a).val < win1_3.index t a * S1x1x2048.size a + S1x1x2048.size a := by
  show i ∈ ((View.whole main_v14_0).slice (win1_3.rect t)).set ↔ _
  rw [View.set_slice_whole, Rect.mem_set_unit]
  exact Iff.rfl

/-- Every index (block, 0, class) of the counts array is in point block's block, and every point writes back. -/
theorem cover3 (i : S32x1x2048.Idx) :
    ∃ t : Fin cfg1.N, (cfg1.win 3).flush t = true ∧ i ∈ ((cfg1.win 3).blk t).view.set := by
  have hi0 : (i 0).val < 32 := (i 0).isLt
  have hi1 : (i 1).val < 1 := (i 1).isLt
  have hi2 : (i 2).val < 2048 := (i 2).isLt
  have hN : (i 0).val < cfg1.N := by rw [show cfg1.N = 32 from N_1]; exact hi0
  obtain ⟨e0, e1, e2, e3⟩ := idx_facts ⟨(i 0).val, hN⟩
  have e1' : win1_3.index ⟨(i 0).val, hN⟩ (0 : Fin 3) = (i 0).val := e1
  refine ⟨⟨(i 0).val, hN⟩, flush1_3 _, ?_⟩
  rw [mem_blk3]
  intro a
  match a with
  | ⟨0, _⟩ =>
    show win1_3.index ⟨(i 0).val, hN⟩ (0 : Fin 3) * 1 ≤ (i 0).val ∧ (i 0).val < win1_3.index ⟨(i 0).val, hN⟩ (0 : Fin 3) * 1 + 1
    omega
  | ⟨1, _⟩ =>
    show win1_3.index ⟨(i 0).val, hN⟩ (1 : Fin 3) * 1 ≤ (i 1).val ∧ (i 1).val < win1_3.index ⟨(i 0).val, hN⟩ (1 : Fin 3) * 1 + 1
    omega
  | ⟨2, _⟩ =>
    show win1_3.index ⟨(i 0).val, hN⟩ (2 : Fin 3) * 2048 ≤ (i 2).val ∧ (i 2).val < win1_3.index ⟨(i 0).val, hN⟩ (2 : Fin 3) * 2048 + 2048
    omega

end Counts

open Counts

/-- After the region the counts array holds, at (block, 0, class), the number of the block's samples of that class. -/
theorem counts_final (c : Dev nD) :
    (dat1 (F := Ideal) V c).arrAt 3 cfg1.N
      = fun i : S32x1x2048.Idx => countsK (fun b => V c main_arg0 (ix1 b)) ⟨(i 0).val, (i 0).isLt⟩ ⟨(i 2).val, (i 2).isLt⟩ :=
  (dat1 (F := Ideal) V c).arrAt_eq_of_cover 3 (G3 V c) (fun t _ => flushed3_eq V c t) cover3

end Cert.KernelIdeal.CenterLoss

end
-- ==== Proof.Region1Loss.lean ====
/-
  The centre-loss region: what its two output arrays hold after the run.
  Grid point t takes 512 samples.  Its first output row counts, for every class, the samples of the block carrying
  that class (a column sum of the 0/1 indicator table); its second output is the block's squared distance between the
  features and the centre rows picked by the indicator table's matrix product with the centres.
-/
import proofs.«425217_j28561532519009_3_alg».proof.Proof.Gen.KernelIdeal.Frame
import proofs.«425217_j28561532519009_3_alg».proof.Proof.Spec
import proofs.«425217_j28561532519009_3_alg».proof.Proof.LibPlainDot
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Run
import Idealize.ShloMosaic.PureOps.Ideal.Laws

set_option maxRecDepth 16384

noncomputable section

namespace Cert.KernelIdeal.CenterLoss

open Cert.KernelIdeal Cert.KernelIdeal.Gen CenterIsland
open Idealize.ShloMosaic Idealize.ShloMosaic.ValueIdx Idealize.ShloMosaic.TcCoe Idealize.SL.Sem
open Idealize.ShloMosaic.Pipeline (Dat)

/-- A truth bit widened to 32 bits and read as a signed integer is 0 or 1. -/
theorem bit_toInt (b : BitVec 1) : (((b.setWidth 32).toInt : ℝ) : EReal) = bitE b := by
  unfold bitE
  by_cases h : b = 1#1
  · subst h; norm_num
  · rw [eq_zero_of_ne_one h]; norm_num

/-- The indicator table at row `r`, column `k`: 1 when the row's class word is `k`, else 0. -/
theorem indicator_apply (v0 : Vec Ideal S512 .i32) (r : Fin 512) (k : Fin 2048) :
    k1_pay1 (F := Ideal) v0 (ix2 r k) = bitE (IntOp.cmpi .eq (v0 (ix1 r)) (BitVec.ofNat 32 k.val)) := by
  unfold k1_pay1
  show ((((IntOp.cmpi .eq (broadcastTo S512x2048 (shapeCast S512x1 v0 shapeCasts_S512_S512x1) broadcasts_S512x1_S512x2048 (ix2 r k)) (iota .tc S512x2048 32 [1] iota_S512x2048_d1_w32 (ix2 r k))).setWidth 32).toInt : ℝ) : EReal) = _
  rw [bit_toInt, iota_single_apply]
  rw [broadcastTo_apply _ _ (ix2 r k) (ix2 r (0 : Fin 1)) (fun a => by
        match a with
        | ⟨0, _⟩ => rfl
        | ⟨1, _⟩ => rfl)]
  rw [shapeCast_apply _ _ (ix2 r (0 : Fin 1)) (ix1 r) (by
        rw [Shape.rowMajor_val_one, Shape.rowMajor_val_two]
        show r.val = r.val * 1 + 0
        omega)]

/-- The kernel's matrix product contracts the indicator table's columns against the centres' rows. -/
theorem plainDims : PlainDot.IsPlain dot_S512x2048_S2048x2048_S512x2048_1_0_0_1_n_n := ⟨rfl, rfl, rfl, rfl, rfl, rfl⟩

/-- The indicator table times the centres, at row `r`, column `d`: the indicator-weighted sum of the centres' column. -/
theorem picked_apply (x0 : Vec Ideal S512 .i32) (x2 : FVec Ideal S2048x2048 .bf16) (r : Fin 512) (d : Fin 2048) :
    matmul dot_S512x2048_S2048x2048_S512x2048_1_0_0_1_n_n none (truncf .bf16 (k1_pay1 (F := Ideal) x0) bitsLt_bf16_f32)
        (shapeCast S2048x2048 x2 shapeCasts_S2048x2048_S2048x2048) (constant (F := Ideal) S512x2048 .f32 0x00000000#32) (ix2 r d)
      = ∑ k : Fin 2048, bitE (IntOp.cmpi .eq (x0 (ix1 r)) (BitVec.ofNat 32 k.val)) * x2 (ix2 k d) := by
  rw [shapeCast_self]
  refine (PlainDot.matmul_zero_apply _ plainDims none _ _ r d).trans ?_
  refine Finset.sum_congr rfl fun k _ => ?_
  rw [truncf_apply, indicator_apply]

/-- The block's squared distance as the body computes it from its three loaded blocks. -/
theorem payload_apply (x0 : Vec Ideal S512 .i32) (x2 : Vec Ideal S2048x2048 .bf16) (x1 : Vec Ideal S512x2048 .f32) (j : S1x1x1.Idx) :
    k1_pay3 (F := Ideal) x0 x2 x1 j
      = ∑ r : Fin 512, ∑ d : Fin 2048,
          (x1 (ix2 r d) - ∑ k : Fin 2048, bitE (IntOp.cmpi .eq (x0 (ix1 r)) (BitVec.ofNat 32 k.val)) * x2 (ix2 k d))
            * (x1 (ix2 r d) - ∑ k : Fin 2048, bitE (IntOp.cmpi .eq (x0 (ix1 r)) (BitVec.ofNat 32 k.val)) * x2 (ix2 k d)) := by
  unfold k1_pay3
  have j0 : (j 0).val < 1 := (j 0).isLt
  have j1 : (j 1).val < 1 := (j 1).isLt
  have j2 : (j 2).val < 1 := (j 2).isLt
  -- the two casts that only add unit axes
  refine (shapeCast_apply _ _ j (ix2 (0 : Fin 1) (0 : Fin 1)) ?_).trans ?_
  · rw [Shape.rowMajor_val_two, Shape.rowMajor_val_three]
    show 0 * 1 + 0 = ((j 0).val * 1 + (j 1).val) * 1 + (j 2).val
    omega
  refine (shapeCast_apply _ _ (ix2 (0 : Fin 1) (0 : Fin 1)) (ix1 (0 : Fin 1)) ?_).trans ?_
  · rw [Shape.rowMajor_val_one, Shape.rowMajor_val_two]
    rfl
  -- the sum down the 512 rows
  refine (Ideal.multiReduction_add_single _ _ reduces_S512x1_S1 _ _ (ix1 (0 : Fin 1))).trans ?_
  refine Finset.sum_congr rfl fun (r : Fin 512) _ => ?_
  refine (shapeCast_apply _ _ _ (ix1 r) ?_).trans ?_
  · rw [Shape.rowMajor_val_one, Shape.rowMajor_val_two]
    show r.val = r.val * 1 + 0
    omega
  -- the sum along the 2048 columns
  refine (Ideal.multiReduction_add_single _ _ reduces_S512x2048_S512 _ _ (ix1 r)).trans ?_
  refine Finset.sum_congr rfl fun (d : Fin 2048) _ => ?_
  have hrd : reduces_S512x2048_S512.lift (ix1 r) d = ix2 r d := by
    funext a
    apply Fin.ext
    match a with
    | ⟨0, _⟩ => rfl
    | ⟨1, _⟩ => rfl
  rw [hrd, mulf_apply, subf_apply, picked_apply]

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The loss array the region leaves: entry (block, 0, 0) is the block's squared distance. -/
abbrev lossArr (c : Dev nD) : S32x1x1.Idx → EReal :=
  fun i => lossK (fun b => V c main_arg0 (ix1 b)) (V c main_arg1) (V c main_v0) ⟨(i 0).val, (i 0).isLt⟩

/-- The printed index maps, decided over the 32 grid points: the labels', the features' and the loss's blocks move
    with the point, the centres' block stays. -/
theorem idx_facts : ∀ t : Fin cfg1.N, win1_0.index t (0 : Fin 1) = t.val
    ∧ win1_1.index t (0 : Fin 2) = t.val ∧ win1_1.index t (1 : Fin 2) = 0
    ∧ win1_2.index t (0 : Fin 2) = 0 ∧ win1_2.index t (1 : Fin 2) = 0
    ∧ win1_4.index t (0 : Fin 3) = t.val ∧ win1_4.index t (1 : Fin 3) = 0 ∧ win1_4.index t (2 : Fin 3) = 0
    ∧ t.val < 32 :=
  (by decide +kernel : ∀ t : Fin grid1.N, _)

/-- Point `t`'s block of labels holds the labels of block `t`'s samples. -/
theorem labels_block (c : Dev nD) (t : Fin cfg1.N) (ht : t.val < 32) (r : Fin 512) :
    iblk1 V c 0 t (ix1 r) = V c main_arg0 (ix1 (sampleOf ⟨t.val, ht⟩ r)) := by
  obtain ⟨e0, -⟩ := idx_facts t
  show V c main_arg0 (((cfg1.win 0).blk t).view.emb (ix1 r)) = V c main_arg0 (ix1 (sampleOf ⟨t.val, ht⟩ r))
  refine congrArg _ (funext fun a => Fin.ext ?_)
  match a with
  | ⟨0, _⟩ =>
    show win1_0.index t (0 : Fin 1) * 512 + 1 * r.val = t.val * 512 + r.val
    omega

/-- Point `t`'s block of features holds the feature rows of block `t`'s samples. -/
theorem feat_block (c : Dev nD) (t : Fin cfg1.N) (ht : t.val < 32) (r : Fin 512) (d : Fin 2048) :
    iblk1 V c 1 t (ix2 r d) = V c main_arg1 (ix2 (sampleOf ⟨t.val, ht⟩ r) d) := by
  obtain ⟨-, e1, e2, -⟩ := idx_facts t
  show V c main_arg1 (((cfg1.win 1).blk t).view.emb (ix2 r d)) = V c main_arg1 (ix2 (sampleOf ⟨t.val, ht⟩ r) d)
  refine congrArg _ (funext fun a => Fin.ext ?_)
  match a with
  | ⟨0, _⟩ =>
    show win1_1.index t (0 : Fin 2) * 512 + 1 * r.val = t.val * 512 + r.val
    omega
  | ⟨1, _⟩ =>
    show win1_1.index t (1 : Fin 2) * 2048 + 1 * d.val = d.val
    omega

/-- Every point's block of centres is the whole table. -/
theorem cen_block (c : Dev nD) (t : Fin cfg1.N) (k d : Fin 2048) :
    iblk1 V c 2 t (ix2 k d) = V c main_v0 (ix2 k d) := by
  obtain ⟨-, -, -, e3, e4, -⟩ := idx_facts t
  show V c main_v0 (((cfg1.win 2).blk t).view.emb (ix2 k d)) = V c main_v0 (ix2 k d)
  refine congrArg _ (funext fun a => Fin.ext ?_)
  match a with
  | ⟨0, _⟩ =>
    show win1_2.index t (0 : Fin 2) * 2048 + 1 * k.val = k.val
    omega
  | ⟨1, _⟩ =>
    show win1_2.index t (1 : Fin 2) * 2048 + 1 * d.val = d.val
    omega

/-- What point `t` writes back is block `t` of the loss array. -/
theorem flushed_eq (c : Dev nD) (t : Fin cfg1.N) :
    (dat1 (F := Ideal) V c).flushed 4 t = ((cfg1.win 4).blk t).view.read (Elt Ideal) (lossArr V c) := by
  show (cfg1.win 4).cut (grid1.coords t) ((dat1 (F := Ideal) V c).after 4 t) = _
  rw [after1_4]
  unfold out1_4
  rw [View.canon_unit_zero hz3]
  simp only [View.ld_unit_zero (S := S512) hz1, View.ld_unit_zero (S := S2048x2048) hz2, View.ld_unit_zero (S := S512x2048) hz2]
  funext y
  obtain ⟨-, -, -, -, -, e5, -, -, ht⟩ := idx_facts t
  have y0 : (y 0).val < 1 := (y 0).isLt
  have hb : ((((cfg1.win 4).blk t).view.emb y) 0).val = t.val := by
    show win1_4.index t (0 : Fin 3) * 1 + 1 * (y 0).val = t.val
    omega
  show k1_pay3 (F := Ideal) (iblk1 V c 0 t) (iblk1 V c 2 t) (iblk1 V c 1 t) y
      = lossK (fun b => V c main_arg0 (ix1 b)) (V c main_arg1) (V c main_v0)
          ⟨((((cfg1.win 4).blk t).view.emb y) 0).val, ((((cfg1.win 4).blk t).view.emb y) 0).isLt⟩
  rw [show (⟨((((cfg1.win 4).blk t).view.emb y) 0).val, ((((cfg1.win 4).blk t).view.emb y) 0).isLt⟩ : Fin 32) = ⟨t.val, ht⟩ from Fin.ext hb]
  refine (payload_apply (iblk1 V c 0 t) (iblk1 V c 2 t) (iblk1 V c 1 t) y).trans ?_
  unfold lossK pickedK
  refine Finset.sum_congr rfl fun r _ => Finset.sum_congr rfl fun d _ => ?_
  have e0 := labels_block V c t ht r
  have e1 := feat_block V c t ht r d
  have e2 : ∀ k : Fin 2048, iblk1 V c 2 t (ix2 k d) = V c main_v0 (ix2 k d) := fun k => cen_block V c t k d
  rw [e0, e1]
  simp only [e2]

/-- An index of the loss array is in point `t`'s block iff each coordinate is in the block's range on its axis. -/
theorem mem_blk (t : Fin cfg1.N) (i : S32x1x1.Idx) :
    i ∈ ((cfg1.win 4).blk t).view.set ↔ ∀ a : Fin 3, win1_4.index t a * S1x1x1.size a ≤ (i a).val ∧ (i a).val < win1_4.index t a * S1x1x1.size a + S1x1x1.size a := by
  show i ∈ ((View.whole main_v14_1).slice (win1_4.rect t)).set ↔ _
  rw [View.set_slice_whole, Rect.mem_set_unit]
  exact Iff.rfl

/-- Entry (block, 0, 0) of the loss array lies in point `block`'s block, which is written back. -/
theorem cover (i : S32x1x1.Idx) : ∃ t : Fin cfg1.N, (cfg1.win 4).flush t = true ∧ i ∈ ((cfg1.win 4).blk t).view.set := by
  have hN : grid1.N = 32 := by decide
  have i0 : (i 0).val < 32 := (i 0).isLt
  have i1 : (i 1).val < 1 := (i 1).isLt
  have i2 : (i 2).val < 1 := (i 2).isLt
  obtain ⟨t, htv⟩ : ∃ t : Fin cfg1.N, t.val = (i 0).val := ⟨⟨(i 0).val, by show (i 0).val < grid1.N; rw [hN]; exact i0⟩, rfl⟩
  obtain ⟨-, -, -, -, -, e5, e6, e7, -⟩ := idx_facts t
  refine ⟨t, flush1_4 t, ?_⟩
  rw [mem_blk]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 1 ≤ (i 1).val ∧ (i 1).val < win1_4.index t (1 : Fin 3) * 1 + 1
    omega
  | ⟨2, _⟩ =>
    show win1_4.index t (2 : Fin 3) * 1 ≤ (i 2).val ∧ (i 2).val < win1_4.index t (2 : Fin 3) * 1 + 1
    omega

/-- After the region the loss array holds, at (block, 0, 0), the block's squared distance. -/
theorem loss_final (c : Dev nD) :
    (dat1 (F := Ideal) V c).arrAt 4 cfg1.N
      = fun i : S32x1x1.Idx => lossK (fun b => V c main_arg0 (ix1 b)) (V c main_arg1) (V c main_v0) ⟨(i 0).val, (i 0).isLt⟩ :=
  (dat1 (F := Ideal) V c).arrAt_eq_of_cover 4 (lossArr V c) (fun t _ => flushed_eq V c t) cover

end Cert.KernelIdeal.CenterLoss

end
-- ==== Proof.KernelValue.lean ====
/-
  The counting program's result buffer, as the specification's counting form of the launch arrays.
  The last boundary's contents at the result buffer are the host tail of the three tables the regions leave; the island
  table is each class row's contribution over the normalised centres, the rows gathered for the list and the list; the
  counts and distance tables are the per-block counts and squared distances over the samples' words, the features and
  the centres (narrowing the centres changes nothing over the extended reals).
-/
import proofs.«425217_j28561532519009_3_alg».proof.Proof.KernelRun
import proofs.«425217_j28561532519009_3_alg».proof.Proof.KernelHost
import proofs.«425217_j28561532519009_3_alg».proof.Proof.KernelTail
import proofs.«425217_j28561532519009_3_alg».proof.Proof.Region0
import proofs.«425217_j28561532519009_3_alg».proof.Proof.Region1Counts
import proofs.«425217_j28561532519009_3_alg».proof.Proof.Region1Loss
import proofs.«425217_j28561532519009_3_alg».proof.Proof.Spec

set_option maxRecDepth 16384

noncomputable section

namespace Cert.KernelIdeal.KValue

open Cert.KernelIdeal Cert.KernelIdeal.Gen Cert.KernelIdeal.HostValue CenterIsland
open Idealize.ShloMosaic Idealize.ShloMosaic.ValueIdx Idealize.ShloMosaic.TcCoe Idealize.SL.Sem

variable (m : (ℓ : Loc nD τ sig) → Buf (Elt Ideal) ℓ) (ρ : Dev nD → PrngReg)

/-- The row of the normalised centres the list's word at position j selects. -/
def rowOf (x2 : S2048.Idx → BitVec 32) (j : Fin 2048) : Fin 2048 := clampRow (wrapNeg (x2 (ix1 j)))

/-- The gathered table is the normalised centres' rows at `rowOf`. -/
theorem cnt_eq (x2 : (⟨S2048, .i32⟩ : BufTy).Contents (Elt Ideal)) (x3 : (⟨S2048x2048, .f32⟩ : BufTy).Contents (Elt Ideal)) :
    (cntK x2 x3 : Sq.Idx → EReal)
      = fun i => cnK x3 (ix2 (rowOf x2 ⟨(i 0).val, idx2_lt0 i⟩) ⟨(i 1).val, idx2_lt1 i⟩) := by
  funext i
  rw [eq_ix2 i]
  exact cntK_apply x2 x3 _ _

/-- The island table over the launch arrays. -/
theorem island_table (c : Dev nD) :
    (fun v : Fin 2048 => (dat0 (V3 m ρ) c).arrAt 3 cfg0.N (ix1 v))
      = contribK (cnK (m ((c.tc : Thread nD τ).loc main_arg3)))
          (fun i => cnK (m ((c.tc : Thread nD τ).loc main_arg3)) (ix2 (rowOf (m ((c.tc : Thread nD τ).loc main_arg2)) ⟨(i 0).val, idx2_lt0 i⟩) ⟨(i 1).val, idx2_lt1 i⟩))
          (fun j => m ((c.tc : Thread nD τ).loc main_arg2) (ix1 j)) := by
  funext v
  rw [Island.island_final (V3 m ρ) c]
  show contribK (V3 m ρ c main_v4) (V3 m ρ c main_v11) (fun j => V3 m ρ c main_v12 (ix2 (0 : Fin 1) j)) v = _
  rw [V3_v4, V3_v11, V3_v12, cnt_eq]
  exact congrArg (fun tl => contribK _ _ tl v) (funext fun j => tlrow_apply _ j)

/-- The counts table over the launch arrays. -/
theorem counts_table (c : Dev nD) :
    (fun (blk : Fin 32) (v : Fin 2048) => (dat1 (V4 m ρ) c).arrAt 3 cfg1.N (ix3 blk (0 : Fin 1) v))
      = countsK (fun b => m ((c.tc : Thread nD τ).loc main_arg0) (ix1 b)) := by
  funext blk v
  rw [CenterLoss.counts_final (V4 m ρ) c]
  show countsK (fun b => V4 m ρ c main_arg0 (ix1 b)) blk v = _
  rw [V4_arg0]

/-- The distance table over the launch arrays. -/
theorem loss_table (c : Dev nD) :
    (fun blk : Fin 32 => (dat1 (V4 m ρ) c).arrAt 4 cfg1.N (ix3 blk (0 : Fin 1) (0 : Fin 1)))
      = lossK (fun b => m ((c.tc : Thread nD τ).loc main_arg0) (ix1 b)) (m ((c.tc : Thread nD τ).loc main_arg1))
          (m ((c.tc : Thread nD τ).loc main_arg3)) := by
  funext blk
  rw [CenterLoss.loss_final (V4 m ρ) c]
  show lossK (fun b => V4 m ρ c main_arg0 (ix1 b)) (V4 m ρ c main_arg1) (V4 m ρ c main_v0) blk = _
  rw [V4_arg0, V4_arg1, V4_v0]
  rfl

/-- The result buffer at the last boundary: the counting form of the launch arrays. -/
theorem result_eq (c : Dev nD) :
    W6 m ρ c (Proc.devRef .tc main_v23)
      = fun _ => kernelScalar (cnK (m ((c.tc : Thread nD τ).loc main_arg3)))
          (fun i => cnK (m ((c.tc : Thread nD τ).loc main_arg3)) (ix2 (rowOf (m ((c.tc : Thread nD τ).loc main_arg2)) ⟨(i 0).val, idx2_lt0 i⟩) ⟨(i 1).val, idx2_lt1 i⟩))
          (m ((c.tc : Thread nD τ).loc main_arg3)) (m ((c.tc : Thread nD τ).loc main_arg1))
          (fun j => m ((c.tc : Thread nD τ).loc main_arg2) (ix1 j)) (fun b => m ((c.tc : Thread nD τ).loc main_arg0) (ix1 b)) := by
  rw [W6_v23 m ρ c, island_table m ρ c, counts_table m ρ c, loss_table m ρ c]
  rfl

end Cert.KernelIdeal.KValue

end
-- ==== Proof.RefValue.lean ====
/-
  The direct program, read: its result is the direct form of the specification.
  Its three gathers are read by hand (each selects a row, a column or an entry by a start index read signed and clamped);
  every other operation is read by the generated index lemmas.

  The reading, outermost first.  The result is  λ · I + (½ · C) / B  where
    * I = 0 + Σ_b t(lab b), the sum over the samples of the entry of a rank-1 table t the sample's word selects;
      t(v) = 0 + Σ_j (G(v, j) + 1) · [tl j ≠ v], and G(v, j) is the entry (v, κ j) of the cosine table
      cos(v, w) = Σ_d cn(v, d) · cn(w, d), its second operand being the transpose of the normalised centres;
    * C = 0 + Σ_b Σ_d (feat(b, d) − cen(lab b, d))², the centre row picked by the sample's word.
  A start index is the word itself when it is non-negative and the word plus 2048 otherwise; the gather then
  clamps it into [0, 2047].
-/
import proofs.«425217_j28561532519009_3_alg».proof.Proof.Gen.ReferenceIdeal.Read
import proofs.«425217_j28561532519009_3_alg».proof.Proof.Spec
import Idealize.ShloMosaic.Lib.Pipeline.Value
import Idealize.ShloMosaic.Lib.ValueIdx
import Idealize.ShloMosaic.Lib.ValueIdxRank1
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.Read CenterIsland
open Idealize.ShloMosaic Idealize.ShloMosaic.ValueIdx Idealize.ShloMosaic.TcCoe Idealize.SL.Sem

/-! ## The three gathers at an index

Each operand index is, axis by axis, the clamped start plus the batch coordinate plus the offset coordinate; here
there is no batching axis, the start-indexed axis is collapsed (slice size one, so the clamp is to 2047), and the
other axis, if any, carries the result's offset coordinate. The one start-index component of result position
(…, p, …) sits at row p of the start-index column. -/

/-- The list's gather: result (v, j) reads the table at (v, the clamped start of row j). -/
theorem gather_cols {α : Type} (x : S2048x2048.Idx → α) (idx : IVec S2048x1 32) (v j : Fin 2048) :
    Host.gather gather_S2048x2048_S2048x1_S2048x2048_0_1_n_n_1_1_20481 x idx (ix2 v j)
      = x (ix2 v (clampRow (idx (ix2 j (0 : Fin 1))))) := by
  have h0 : (GatherDims.operandIdx gather_S2048x2048_S2048x1_S2048x2048_0_1_n_n_1_1_20481 (ix2 v j) idx (0 : Fin 2)).val = v.val := by
    show GatherDims.start _ _ _ _ + GatherDims.batchCoord _ _ _ + GatherDims.offCoord _ _ _ = v.val
    rw [GatherDims.batchCoord_eq_zero _ _ _ List.not_mem_nil]
    unfold GatherDims.start GatherDims.offCoord
    rw [dif_neg (by decide), dif_pos (by decide), Nat.zero_add]
    rfl
  have h1 : (GatherDims.operandIdx gather_S2048x2048_S2048x1_S2048x2048_0_1_n_n_1_1_20481 (ix2 v j) idx (1 : Fin 2)).val
      = min (idx (ix2 j (0 : Fin 1))).toInt.toNat 2047 := by
    show GatherDims.start _ _ _ _ + GatherDims.batchCoord _ _ _ + GatherDims.offCoord _ _ _ = min _ 2047
    rw [GatherDims.batchCoord_eq_zero _ _ _ List.not_mem_nil]
    unfold GatherDims.start GatherDims.offCoord
    rw [dif_pos (by decide), dif_neg (by decide)]
    show min (idx _).toInt.toNat 2047 = _
    congr 4
    funext b
    apply Fin.ext
    match b with
    | ⟨0, _⟩ => rfl
    | ⟨1, _⟩ => rfl
  unfold Host.gather
  congr 1
  funext a
  apply Fin.ext
  match a with
  | ⟨0, _⟩ => exact h0
  | ⟨1, _⟩ => exact h1

/-- The samples' row gather: result (b, d) reads the table at (the clamped start of row b, d). -/
theorem gather_rows {α : Type} (x : S2048x2048.Idx → α) (idx : IVec S16384x1 32) (b : Fin 16384) (d : Fin 2048) :
    Host.gather gather_S2048x2048_S16384x1_S16384x2048_1_0_n_n_0_1_12048 x idx (ix2 b d)
      = x (ix2 (clampRow (idx (ix2 b (0 : Fin 1)))) d) := by
  have h0 : (GatherDims.operandIdx gather_S2048x2048_S16384x1_S16384x2048_1_0_n_n_0_1_12048 (ix2 b d) idx (0 : Fin 2)).val
      = min (idx (ix2 b (0 : Fin 1))).toInt.toNat 2047 := by
    show GatherDims.start _ _ _ _ + GatherDims.batchCoord _ _ _ + GatherDims.offCoord _ _ _ = min _ 2047
    rw [GatherDims.batchCoord_eq_zero _ _ _ List.not_mem_nil]
    unfold GatherDims.start GatherDims.offCoord
    rw [dif_pos (by decide), dif_neg (by decide)]
    show min (idx _).toInt.toNat 2047 = _
    congr 4
    funext c
    apply Fin.ext
    match c with
    | ⟨0, _⟩ => rfl
    | ⟨1, _⟩ => rfl
  have h1 : (GatherDims.operandIdx gather_S2048x2048_S16384x1_S16384x2048_1_0_n_n_0_1_12048 (ix2 b d) idx (1 : Fin 2)).val = d.val := by
    show GatherDims.start _ _ _ _ + GatherDims.batchCoord _ _ _ + GatherDims.offCoord _ _ _ = d.val
    rw [GatherDims.batchCoord_eq_zero _ _ _ List.not_mem_nil]
    unfold GatherDims.start GatherDims.offCoord
    rw [dif_neg (by decide), dif_pos (by decide), Nat.zero_add]
    rfl
  unfold Host.gather
  congr 1
  funext a
  apply Fin.ext
  match a with
  | ⟨0, _⟩ => exact h0
  | ⟨1, _⟩ => exact h1

/-- The samples' entry gather: result position b reads the rank-1 table at the clamped start of row b. -/
theorem gather_entries {α : Type} (x : S2048.Idx → α) (idx : IVec S16384x1 32) (b : Fin 16384) :
    Host.gather gather_S2048_S16384x1_S16384_n_0_n_n_0_1_1 x idx (ix1 b)
      = x (ix1 (clampRow (idx (ix2 b (0 : Fin 1))))) := by
  have h0 : (GatherDims.operandIdx gather_S2048_S16384x1_S16384_n_0_n_n_0_1_1 (ix1 b) idx (0 : Fin 1)).val
      = min (idx (ix2 b (0 : Fin 1))).toInt.toNat 2047 := by
    show GatherDims.start _ _ _ _ + GatherDims.batchCoord _ _ _ + GatherDims.offCoord _ _ _ = min _ 2047
    rw [GatherDims.batchCoord_eq_zero _ _ _ List.not_mem_nil]
    unfold GatherDims.start GatherDims.offCoord
    rw [dif_pos (by decide), dif_neg (by decide)]
    show min (idx _).toInt.toNat 2047 = _
    congr 4
    funext c
    apply Fin.ext
    match c with
    | ⟨0, _⟩ => rfl
    | ⟨1, _⟩ => rfl
  unfold Host.gather
  congr 1
  funext a
  apply Fin.ext
  match a with
  | ⟨0, _⟩ => exact h0

/-! ## The start-index columns: a word, wrapped if negative -/

/-- Row j of the list's start-index column: the list's word, wrapped if negative. -/
theorem start_list (x2 : (⟨S2048, .i32⟩ : BufTy).Contents (Elt Ideal)) (j : Fin 2048) :
    val_main_v10 (F := Ideal) x2 (ix2 j (0 : Fin 1)) = wrapNeg (x2 (ix1 j)) := by
  rw [val_main_v10_apply, val_main_v9_apply, val_main_v6_apply, val_main_v8_apply, val_main_v5_apply, val_main_v7_apply,
    val_main_c_apply, val_main_c_0_apply]
  have e : idx_main_v10 (ix2 j (0 : Fin 1)) = ix1 j := by
    funext a; match a with | ⟨0, _⟩ => rfl
  rw [e]
  rfl

/-- Row b of the samples' start-index column (the entry gather's): the sample's word, wrapped if negative. -/
theorem start_lab₁ (x0 : (⟨S16384, .i32⟩ : BufTy).Contents (Elt Ideal)) (b : Fin 16384) :
    val_main_v28 (F := Ideal) x0 (ix2 b (0 : Fin 1)) = wrapNeg (x0 (ix1 b)) := by
  rw [val_main_v28_apply, val_main_v27_apply, val_main_v24_apply, val_main_v26_apply, val_main_v23_apply, val_main_v25_apply,
    val_main_c_2_apply, val_main_c_3_apply]
  have e : idx_main_v28 (ix2 b (0 : Fin 1)) = ix1 b := by
    funext a; match a with | ⟨0, _⟩ => rfl
  rw [e]
  rfl

/-- Row b of the samples' start-index column (the row gather's): the sample's word, wrapped if negative. -/
theorem start_lab₂ (x0 : (⟨S16384, .i32⟩ : BufTy).Contents (Elt Ideal)) (b : Fin 16384) :
    val_main_v37 (F := Ideal) x0 (ix2 b (0 : Fin 1)) = wrapNeg (x0 (ix1 b)) := by
  rw [val_main_v37_apply, val_main_v36_apply, val_main_v33_apply, val_main_v35_apply, val_main_v32_apply, val_main_v34_apply,
    val_main_c_6_apply, val_main_c_7_apply]
  have e : idx_main_v37 (ix2 b (0 : Fin 1)) = ix1 b := by
    funext a; match a with | ⟨0, _⟩ => rfl
  rw [e]
  rfl

/-! ## The island term -/

/-- The cosine table's entry (v, w): the inner product of the normalised rows v and w. -/
theorem cos_entry (x3 : (⟨S2048x2048, .f32⟩ : BufTy).Contents (Elt Ideal)) (v w : Fin 2048) :
    val_main_v4 (F := Ideal) x3 (ix2 v w)
      = ∑ d : Fin 2048, val_main_v2 (F := Ideal) x3 (ix2 v d) * val_main_v2 (F := Ideal) x3 (ix2 w d) := by
  rw [val_main_v4_apply]
  refine Finset.sum_congr rfl fun d _ => ?_
  rw [val_main_v3_apply]
  have e1 : lidx_main_v4 (ix2 v w) d = ix2 v d := by
    funext a; match a with | ⟨0, _⟩ => rfl | ⟨1, _⟩ => rfl
  have e2 : idx_main_v3 (ridx_main_v4 (ix2 v w) d) = ix2 w d := by
    funext a; match a with | ⟨0, _⟩ => rfl | ⟨1, _⟩ => rfl
  rw [e1, e2]

/-- The list's gathered table at (v, j): the inner product of normalised row v with the row the list's word at j selects. -/
theorem gathered_entry (x2 : (⟨S2048, .i32⟩ : BufTy).Contents (Elt Ideal)) (x3 : (⟨S2048x2048, .f32⟩ : BufTy).Contents (Elt Ideal))
    (v j : Fin 2048) :
    val_main_v11 (F := Ideal) x2 x3 (ix2 v j)
      = ∑ d : Fin 2048, val_main_v2 (F := Ideal) x3 (ix2 v d) * val_main_v2 (F := Ideal) x3 (ix2 (clampRow (wrapNeg (x2 (ix1 j)))) d) := by
  unfold val_main_v11
  rw [gather_cols, start_list]
  exact cos_entry x3 v (clampRow (wrapNeg (x2 (ix1 j))))

/-- The mask at (v, j): the bit "the list's word at j is not v". -/
theorem mask_entry (x2 : (⟨S2048, .i32⟩ : BufTy).Contents (Elt Ideal)) (v j : Fin 2048) :
    val_main_v18 (F := Ideal) x2 (ix2 v j) = bitE (IntOp.cmpi .ne (x2 (ix1 j)) (BitVec.ofNat 32 v.val)) := by
  rw [val_main_v18_apply, val_main_v17_apply, val_main_v15_apply, val_main_v12_apply, val_main_v16_apply, val_main_v14_apply,
    val_main_v13_apply]
  have e : idx_main_v12 (idx_main_v15 (ix2 v j)) = ix1 j := by
    funext a; match a with | ⟨0, _⟩ => rfl
  rw [e]
  rfl

/-- Class row v's island sum, as the reference computes it. -/
theorem island_row (x2 : (⟨S2048, .i32⟩ : BufTy).Contents (Elt Ideal)) (x3 : (⟨S2048x2048, .f32⟩ : BufTy).Contents (Elt Ideal))
    (v : Fin 2048) :
    val_main_v22 (F := Ideal) x2 x3 (ix1 v)
      = contribR (val_main_v2 (F := Ideal) x3) (fun j => clampRow (wrapNeg (x2 (ix1 j)))) (fun j => x2 (ix1 j)) v := by
  rw [val_main_v22_apply]
  unfold contribR
  refine congrArg₂ (· + ·) rfl (Finset.sum_congr rfl fun j _ => ?_)
  have e : idx_main_v22 (ix1 v) j = ix2 v j := by
    funext a; match a with | ⟨0, _⟩ => rfl | ⟨1, _⟩ => rfl
  rw [e, val_main_v21_apply, val_main_v20_apply, gathered_entry, mask_entry, val_main_v19_apply, val_main_cst_apply]
  rfl

/-! ## The two totals -/

/-- The island total: the initial value plus the sum over the samples of the island sum of each sample's class row. -/
theorem island_total (x0 : (⟨S16384, .i32⟩ : BufTy).Contents (Elt Ideal)) (x2 : (⟨S2048, .i32⟩ : BufTy).Contents (Elt Ideal))
    (x3 : (⟨S2048x2048, .f32⟩ : BufTy).Contents (Elt Ideal)) (i : S_.Idx) :
    val_main_v30 (F := Ideal) x0 x2 x3 i
      = zero + ∑ b : Fin 16384, contribR (val_main_v2 (F := Ideal) x3) (fun j => clampRow (wrapNeg (x2 (ix1 j))))
          (fun j => x2 (ix1 j)) (clampRow (wrapNeg (x0 (ix1 b)))) := by
  rw [val_main_v30_apply, val_main_cst_4_apply]
  refine congrArg₂ (· + ·) rfl ?_
  rw [← Equiv.sum_comp (idxEquiv1 (n := 16384)).symm]
  refine Finset.sum_congr rfl fun b _ => ?_
  show val_main_v29 (F := Ideal) x0 x2 x3 (ix1 b) = _
  unfold val_main_v29
  rw [gather_entries, start_lab₁]
  exact island_row x2 x3 _

/-- The centre total: the initial value plus the sum over samples and columns of the squared distance to the picked row. -/
theorem centre_total (x0 : (⟨S16384, .i32⟩ : BufTy).Contents (Elt Ideal)) (x1 : (⟨S16384x2048, .f32⟩ : BufTy).Contents (Elt Ideal))
    (x3 : (⟨S2048x2048, .f32⟩ : BufTy).Contents (Elt Ideal)) (i : S_.Idx) :
    val_main_v41 (F := Ideal) x0 x1 x3 i
      = zero + ∑ b : Fin 16384, ∑ d : Fin 2048,
          (x1 (ix2 b d) - x3 (ix2 (clampRow (wrapNeg (x0 (ix1 b)))) d)) * (x1 (ix2 b d) - x3 (ix2 (clampRow (wrapNeg (x0 (ix1 b)))) d)) := by
  rw [val_main_v41_apply, val_main_cst_8_apply, sum_idx2]
  refine congrArg₂ (· + ·) rfl (Finset.sum_congr rfl fun b _ => Finset.sum_congr rfl fun d _ => ?_)
  rw [val_main_v40_apply, val_main_v39_apply]
  unfold val_main_v38
  rw [gather_rows, start_lab₂]
  rfl

/-! ## The result -/

/-- The reference's result is the direct form, over its own normalised centres, the rows its list and its samples'
    class words select (each word wrapped if negative, then clamped into the table). -/
theorem ref_value (x0 : (⟨S16384, .i32⟩ : BufTy).Contents (Elt Ideal)) (x1 : (⟨S16384x2048, .f32⟩ : BufTy).Contents (Elt Ideal))
    (x2 : (⟨S2048, .i32⟩ : BufTy).Contents (Elt Ideal)) (x3 : (⟨S2048x2048, .f32⟩ : BufTy).Contents (Elt Ideal)) :
    val_main_v44 (F := Ideal) x0 x1 x2 x3
      = fun _ => refScalar (val_main_v2 (F := Ideal) x3) x3 x1 (fun j => clampRow (wrapNeg (x2 (ix1 j)))) (fun j => x2 (ix1 j))
          (fun b => clampRow (wrapNeg (x0 (ix1 b)))) := by
  funext i
  rw [val_main_v44_apply, val_main_v31_apply, val_main_v43_apply, val_main_v42_apply, island_total, centre_total,
    val_main_cst_5_apply, val_main_cst_9_apply, val_main_cst_10_apply]
  rfl

end Cert.ReferenceIdeal.RefValue

end
-- ==== Proof.Bridge.lean ====
/-
  The counting program's result equals the direct program's (the definitions are in Spec).

  Three facts carry it.  An indicator of "word a = word k" for row numbers a, k is 1 when a = k and 0 otherwise, so an
  indicator-weighted sum over all rows has one non-zero term.  The samples are the 32 × 512 positions of the blocks,
  so a double sum over blocks and positions is a sum over samples.  And in the extended reals a factor may be taken
  into a sum of NON-NEGATIVE terms whatever the factor is, so a contribution times a count of indicators is the sum of
  the contribution over the samples counted.
-/
import proofs.«425217_j28561532519009_3_alg».proof.Proof.Spec
import Mathlib.Data.EReal.Operations
import Mathlib.Algebra.BigOperators.Fin

noncomputable section

namespace CenterIsland

open Idealize.ShloMosaic Idealize.ShloMosaic.ValueIdx

/-! ## A class word in range is the row it selects -/

/-- A word whose signed value is a row number is that row's word: nothing wraps and nothing is clamped. -/
theorem word_of_range (w : BitVec 32) (h0 : 0 ≤ w.toInt) (h1 : w.toInt < 2048) :
    w = BitVec.ofNat 32 (clampRow (wrapNeg w)).val := by
  -- the signed value is not below 0, so the "negative" test is the bit 0 and the word is left as it is
  have hslt : IntOp.cmpi .slt w 0#32 = 0#1 := by
    have hb : w.slt 0#32 = false := by
      simp only [BitVec.slt, BitVec.toInt_zero, decide_eq_false_iff_not, not_lt]; exact h0
    simp only [IntOp.cmpi, hb]; rfl
  have hw : wrapNeg w = w := by unfold wrapNeg; rw [hslt]; exact select_zero _ _
  -- a non-negative signed value is the unsigned value
  have hlt := w.isLt
  have hn : w.toInt = (w.toNat : ℤ) := by
    rw [BitVec.toInt_eq_toNat_cond] at h0 ⊢
    split_ifs at h0 ⊢ with hc
    · rfl
    · exfalso; omega
  have hval : (clampRow (wrapNeg w)).val = w.toNat := by
    rw [hw]; show min w.toInt.toNat 2047 = w.toNat
    rw [hn] at h1 ⊢; simp only [Int.toNat_natCast]; omega
  rw [hval]
  apply BitVec.eq_of_toNat_eq
  rw [BitVec.toNat_ofNat]; omega

/-! ## Indicators of row words -/

/-- The indicator of "the word of row a is the word of row k" is 1 when a = k and 0 otherwise: row numbers are
    below 2³², where a word determines its number. -/
theorem ind_eq (a k : Fin 2048) :
    bitE (IntOp.cmpi .eq (BitVec.ofNat 32 a.val) (BitVec.ofNat 32 k.val)) = if a = k then 1 else 0 := by
  by_cases h : a = k
  · subst h
    have : IntOp.cmpi .eq (BitVec.ofNat 32 a.val) (BitVec.ofNat 32 a.val) = 1#1 := by
      simp only [IntOp.cmpi, beq_self_eq_true]; rfl
    rw [this, if_pos rfl]; simp [bitE]
  · have hne : BitVec.ofNat 32 a.val ≠ BitVec.ofNat 32 k.val := by
      intro he
      have := congrArg BitVec.toNat he
      rw [BitVec.toNat_ofNat, BitVec.toNat_ofNat] at this
      apply h; apply Fin.ext
      have := a.isLt; have := k.isLt; omega
    have : IntOp.cmpi .eq (BitVec.ofNat 32 a.val) (BitVec.ofNat 32 k.val) = 0#1 := by
      have hb : (BitVec.ofNat 32 a.val == BitVec.ofNat 32 k.val) = false := by
        simpa using hne
      simp only [IntOp.cmpi, hb]; rfl
    rw [this, if_neg h]; simp [bitE]

/-- An indicator is not negative. -/
theorem ind_nonneg (a k : Fin 2048) : (0 : EReal) ≤ if a = k then 1 else 0 := by
  split_ifs <;> norm_num

/-! ## Sums -/

/-- A factor goes into a sum of non-negative extended reals, whatever the factor. -/
theorem mul_sum_of_nonneg {ι : Type*} (s : Finset ι) (c : EReal) (g : ι → EReal) (hg : ∀ i, 0 ≤ g i) :
    c * ∑ i ∈ s, g i = ∑ i ∈ s, c * g i := by
  classical
  induction s using Finset.induction_on with
  | empty => simp
  | insert a s ha ih =>
    rw [Finset.sum_insert ha, Finset.sum_insert ha,
      EReal.left_distrib_of_nonneg (hg a) (Finset.sum_nonneg fun i _ => hg i), ih]

/-- The samples are the positions of the blocks. -/
def sampleEquiv : Fin 32 × Fin 512 ≃ Fin 16384 where
  toFun p := sampleOf p.1 p.2
  invFun b := (⟨b.val / 512, by have := b.isLt; omega⟩, ⟨b.val % 512, by omega⟩)
  left_inv := by
    rintro ⟨⟨a, ha⟩, ⟨r, hr⟩⟩
    simp only [sampleOf, Prod.mk.injEq, Fin.mk.injEq]
    constructor <;> omega
  right_inv := by
    rintro ⟨b, hb⟩
    simp only [sampleOf, Fin.mk.injEq]
    omega

/-- A double sum over blocks and positions is the sum over samples. -/
theorem sum_blocks {M : Type*} [AddCommMonoid M] (g : Fin 16384 → M) :
    ∑ blk : Fin 32, ∑ r : Fin 512, g (sampleOf blk r) = ∑ b : Fin 16384, g b := by
  rw [← Equiv.sum_comp sampleEquiv g, Fintype.sum_prod_type]
  rfl

/-! ## The pieces of the counting program -/

section
variable (cn cen : Sq.Idx → EReal) (feat : Sf.Idx → EReal) (κ : Fin 2048 → Fin 2048) (tl : Fin 2048 → BitVec 32)
  (lab : Fin 16384 → BitVec 32) (labR : Fin 16384 → Fin 2048) (hlab : ∀ b, lab b = BitVec.ofNat 32 (labR b).val)
include hlab

/-- The indicator-weighted sum over all rows picks the sample's own row: one term is non-zero. -/
theorem picked_eq (b : Fin 16384) (d : Fin 2048) : pickedK lab cen b d = cen (ix2 (labR b) d) := by
  unfold pickedK
  rw [hlab b]
  simp only [ind_eq, ite_mul, one_mul, zero_mul, Finset.sum_ite_eq, Finset.mem_univ, if_true]

/-- The blocks' squared distances add up to the samples' squared distances to their own rows. -/
theorem loss_eq :
    ∑ blk : Fin 32, lossK lab feat cen blk
      = ∑ b : Fin 16384, ∑ d : Fin 2048,
          (feat (ix2 b d) - cen (ix2 (labR b) d)) * (feat (ix2 b d) - cen (ix2 (labR b) d)) := by
  unfold lossK
  rw [sum_blocks (fun b => ∑ d : Fin 2048,
    (feat (ix2 b d) - pickedK lab cen b d) * (feat (ix2 b d) - pickedK lab cen b d))]
  simp only [picked_eq cen lab labR hlab]

/-- The number of samples of class v, over all blocks, is the sum of the samples' indicators. -/
theorem counts_eq (v : Fin 2048) :
    ∑ blk : Fin 32, countsK lab blk v = ∑ b : Fin 16384, if labR b = v then (1 : EReal) else 0 := by
  unfold countsK
  rw [sum_blocks (fun b => bitE (IntOp.cmpi .eq (lab b) (BitVec.ofNat 32 v.val)))]
  simp only [hlab, ind_eq]

/-- Pairing every class's value with its count is summing the value over the samples. -/
theorem count_swap (f : Fin 2048 → EReal) :
    ∑ v : Fin 2048, f v * (zero + ∑ blk : Fin 32, countsK lab blk v) = ∑ b : Fin 16384, f (labR b) := by
  have hz : zero = 0 := Ideal.ofBits_zero_f32
  simp only [hz, zero_add, counts_eq lab labR hlab]
  have h1 : ∀ v : Fin 2048, f v * ∑ b : Fin 16384, (if labR b = v then (1 : EReal) else 0)
      = ∑ b : Fin 16384, f v * (if labR b = v then (1 : EReal) else 0) := fun v =>
    mul_sum_of_nonneg _ _ _ (fun b => ind_nonneg _ _)
  simp only [h1]
  rw [Finset.sum_comm]
  simp only [mul_ite, mul_one, mul_zero, Finset.sum_ite_eq, Finset.mem_univ, if_true]

omit hlab

/-- A class's contribution from the rows gathered at κ is the direct program's. -/
theorem contrib_eq (v : Fin 2048) :
    contribK cn (fun i => cn (ix2 (κ ⟨(i 0).val, idx2_lt0 i⟩) ⟨(i 1).val, idx2_lt1 i⟩)) tl v = contribR cn κ tl v := by
  have hz : zero = 0 := Ideal.ofBits_zero_f32
  unfold contribK contribR
  rw [hz, zero_add]

end

/-! ## The two programs agree -/

/-- With every sample's class word the word of the row labR names, and the list's rows gathered from the normalised
    centres at κ, the counting program's result is the direct program's. -/
theorem kernel_eq_ref (cn cen : Sq.Idx → EReal) (feat : Sf.Idx → EReal) (κ : Fin 2048 → Fin 2048) (tl : Fin 2048 → BitVec 32)
    (lab : Fin 16384 → BitVec 32) (labR : Fin 16384 → Fin 2048) (hlab : ∀ b, lab b = BitVec.ofNat 32 (labR b).val) :
    kernelScalar cn (fun i => cn (ix2 (κ ⟨(i 0).val, idx2_lt0 i⟩) ⟨(i 1).val, idx2_lt1 i⟩)) cen feat tl lab
      = refScalar cn cen feat κ tl labR := by
  unfold kernelScalar refScalar tailK
  rw [count_swap lab labR hlab, loss_eq cen feat lab labR hlab]
  simp only [contrib_eq]

end CenterIsland

end
-- ==== Proof.PreLabel.lean ====
/-
  The precondition, read: every sample's class word is a row number.
  The printed predicate is a conjunction of three "all" reductions; its third says, of every sample's class word w,
  0 ≤ w and w < 2048 as signed integers.
-/
import proofs.«425217_j28561532519009_3_alg».proof.Proof.Gen.Pre_finite_inputs
import Idealize.ShloMosaic.Lib.ReduceAll
import Idealize.ShloMosaic.Lib.ValueIdx
import Idealize.ShloMosaic.Lib.Pipeline.Value
import Idealize.ShloMosaic.Lib.StableHlo.Predicate

noncomputable section

namespace Cert.Pre_finite_inputs.Decode

open Cert.Pre_finite_inputs Cert.Pre_finite_inputs.Gen
open Idealize.ShloMosaic Idealize.ShloMosaic.ValueIdx

/-- Where the precondition holds, every sample's class word is, read signed, a row number of the 2048-row table. -/
theorem label_range {F : FTy → Type} [FloatOps F] (x0 : IVec S16384 32) (x1 : FVec F S16384x2048 .f32) (x2 : IVec S2048 32)
    (x3 : FVec F S2048x2048 .f32) (h : Cert.Pre_finite_inputs.fn (F := F) x0 x1 x2 x3 = fun _ => 1#1) (b : Fin 16384) :
    0 ≤ (x0 (ix1 b)).toInt ∧ (x0 (ix1 b)).toInt < 2048 := by
  -- the predicate at its one index is a conjunction; its last conjunct is the "all" over the samples
  have h0 := congrFun h ix0
  unfold Cert.Pre_finite_inputs.fn at h0
  dsimp only at h0
  obtain ⟨-, hall⟩ := IntOp.andi_eq_one.mp h0
  haveI : Subsingleton S_.Idx := ⟨fun a b => funext fun d => d.elim0⟩
  -- so the conjunction of the two compares is 1 at every sample
  have hb := Host.reduce_andi_all _ _ _ _ ix0 hall (ix1 b)
  obtain ⟨hge, hlt⟩ := IntOp.andi_eq_one.mp hb
  -- the compared constants are the words 0 and 2048
  have e0 : (0#32 : BitVec 32).toInt = 0 := by decide
  have e1 : (2048#32 : BitVec 32).toInt = 2048 := by decide
  have c0 := IntOp.cmpi_sge.mp hge
  have c1 := IntOp.cmpi_slt.mp hlt
  rw [broadcastInDim_apply _ _ _ _ ix0 (fun a => a.elim0)] at c0 c1
  change (0#32 : BitVec 32).toInt ≤ _ at c0
  change _ < (2048#32 : BitVec 32).toInt at c1
  rw [e0] at c0
  rw [e1] at c1
  exact ⟨c0, c1⟩

end Cert.Pre_finite_inputs.Decode

end
-- ==== Proof.lean ====
/-
  A centre loss with an island term: the kernel's two regions against the direct jnp program, over the extended reals.

  Both programs normalise the class centres row by row with the same operations and wrap and clamp the list's words the
  same way.  The kernel then counts: its island region computes every class row's contribution
  Σ_j (⟨cn v, cn (row j)⟩ + 1)·[tl j ≠ v] as a matrix product against the gathered rows; its centre-loss region builds,
  per block of 512 samples, an indicator table of (sample, class), sums it down to per-class counts, and multiplies it
  with the centres to pick each sample's centre row before taking squared distances; the host pairs contributions with
  counts.  The reference gathers a contribution per sample and a centre row per sample directly.

  With every sample's class word a row number in [0, 2048) — the precondition's added conjunct, read back in
  PreLabel — an indicator-weighted sum over the classes has one non-zero term, and a contribution times a count of
  indicators is the contribution summed over the samples counted (multiplication distributes over sums of non-negative
  extended reals), so the two results agree (Bridge) whatever the centres and features are.

  The frames of the two kernel programs are the generated ones; the reference's frame is its generated run with the result
  dropped; the idealisation's one ledger entry (a narrowing to the short float format and back, the identity over the
  extended reals) is the rule's own statement.  The kernel's run with its result named follows the generated frame's call
  of the launch theorem (KernelRun); what the regions leave and what the host operations make of it are read in
  Region0, Region1Counts, Region1Loss, KernelHost, KernelTail and put together in KernelValue; the reference's composed term
  is read in RefValue.
-/
import proofs.«425217_j28561532519009_3_alg».proof.Defs
import proofs.«425217_j28561532519009_3_alg».proof.Proof.Gen.Kernel
import proofs.«425217_j28561532519009_3_alg».proof.Proof.Gen.Kernel.Skeleton
import proofs.«425217_j28561532519009_3_alg».proof.Proof.Gen.Kernel.Launch
import proofs.«425217_j28561532519009_3_alg».proof.Proof.Gen.Kernel.Points
import proofs.«425217_j28561532519009_3_alg».proof.Proof.Gen.Kernel.Frame
import proofs.«425217_j28561532519009_3_alg».proof.Proof.Gen.KernelIdeal
import proofs.«425217_j28561532519009_3_alg».proof.Proof.Gen.KernelIdeal.Skeleton
import proofs.«425217_j28561532519009_3_alg».proof.Proof.Gen.KernelIdeal.Launch
import proofs.«425217_j28561532519009_3_alg».proof.Proof.Gen.KernelIdeal.Points
import proofs.«425217_j28561532519009_3_alg».proof.Proof.Gen.KernelIdeal.Frame
import proofs.«425217_j28561532519009_3_alg».proof.Proof.Gen.ReferenceIdeal
import proofs.«425217_j28561532519009_3_alg».proof.Proof.Gen.Pre_finite_inputs
import proofs.«425217_j28561532519009_3_alg».proof.Proof.Gen.ReferenceIdeal.Run
import proofs.«425217_j28561532519009_3_alg».proof.Proof.Gen.ReferenceIdeal.Read
import proofs.«425217_j28561532519009_3_alg».proof.Proof.KernelValue
import proofs.«425217_j28561532519009_3_alg».proof.Proof.RefValue
import proofs.«425217_j28561532519009_3_alg».proof.Proof.Bridge
import proofs.«425217_j28561532519009_3_alg».proof.Proof.PreLabel
import Idealize.ShloMosaic.Adequacy
import Idealize.ShloMosaic.Init

noncomputable section

namespace Cert.Proof

open Idealize.ShloMosaic Idealize.ShloMosaic.ValueIdx Idealize.SL.Sem CenterIsland

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: narrowing the indicator table to the short format and widening it back is the identity over
    the extended reals, and the stated rounding at the word level. -/
theorem preserves : Cert.preserves_Kernel_KernelIdeal :=
  IdealRules.truncf_extf.statement Cert.KernelIdeal.S512x2048 .f32 .bf16

/-- The common result: the direct form over the kernel's launch arrays. -/
def result (x0 : Cert.KernelIdeal.S16384.Idx → BitVec 32) (x1 : Sf.Idx → EReal) (x2 : Cert.KernelIdeal.S2048.Idx → BitVec 32)
    (x3 : Sq.Idx → EReal) : EReal :=
  refScalar (Cert.ReferenceIdeal.Read.val_main_v2 (F := Ideal) x3) x3 x1 (fun j => clampRow (wrapNeg (x2 (ix1 j))))
    (fun j => x2 (ix1 j)) (fun b => clampRow (wrapNeg (x0 (ix1 b))))

theorem algebraic : Cert.algebraic_KernelIdeal_ReferenceIdeal := by
  intro m ρ m' ρ' hpre hagree
  refine ⟨fun c _ => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel: its result buffer is the counting form, which is the direct form where the class words are row numbers
    refine (θ_run Cert.KernelIdeal.defs _ _).mono (fun r h c => ⟨(h c).1.trans ?_, (h c).2⟩)
      (Cert.KernelIdeal.Gen.run_value (F := Ideal) m ρ)
    rw [Cert.KernelIdeal.KValue.result_eq m ρ c]
    funext _
    beta_reduce
    unfold result
    rw [← Cert.KernelIdeal.HostValue.cn_same]
    exact kernel_eq_ref _ _ _ _ _ _ _ (fun b => word_of_range _
      (Cert.Pre_finite_inputs.Decode.label_range _ _ _ _ (hpre c) b).1
      (Cert.Pre_finite_inputs.Decode.label_range _ _ _ _ (hpre c) b).2)
  · -- the reference: its composed term is the direct form of its own arrays, which are the kernel's
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v44_eq, Cert.ReferenceIdeal.RefValue.ref_value,
      (hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
